-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x512 : Shape := ⟨2, ![1024, 512]⟩
abbrev S4096 : Shape := ⟨1, ![4096]⟩
abbrev S20000x16x8 : Shape := ⟨3, ![20000, 16, 8]⟩
abbrev S20000 : Shape := ⟨1, ![20000]⟩
abbrev S20000x16 : Shape := ⟨2, ![20000, 16]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S4096 : S_.BroadcastsInDim S4096 (![] : Fin 0 → Fin S4096.rank)
  reducesTo_S4096_S_d0 : S4096.ReducesTo [0] S_
  bcast_S_S20000x16x8 : S_.BroadcastsInDim S20000x16x8 (![] : Fin 0 → Fin S20000x16x8.rank)
  reducesTo_S20000x16x8_S_d0_1_2 : S20000x16x8.ReducesTo [0, 1, 2] S_
  bcast_S_S20000 : S_.BroadcastsInDim S20000 (![] : Fin 0 → Fin S20000.rank)
  reducesTo_S20000_S_d0 : S20000.ReducesTo [0] S_

variable [Facts]

def fn_part1 {F : FTy → Type} [FloatOps F] (main_arg4 : FVec F S20000 .f32) (main_v13 : IVec S_ 1) (main_v16 : IVec S20000x16x8 1) : IVec S_ 1 :=
  let main_c_5 : IVec S_ 1 := constantI S_ 1 1#1
  let main_v17 : IVec S_ 1 := (fun x v => Host.reduce IntOp.andi x v reducesTo_S20000x16x8_S_d0_1_2 h_S_) main_v16 main_c_5
  let main_v18 : IVec S_ 1 := andi main_v13 main_v17
  let main_v19 : FVec F S20000 .f32 := Host.absf main_arg4
  let main_cst_6 : FVec F S_ .f32 := constant S_ .f32 0x7F800000#32
  let main_v20 : FVec F S20000 .f32 := broadcastInDim S20000 ![] bcast_S_S20000 main_cst_6
  let main_v21 : IVec S20000 1 := cmpf .olt main_v19 main_v20
  let main_c_7 : IVec S_ 1 := constantI S_ 1 1#1
  let main_v22 : IVec S_ 1 := (fun x v => Host.reduce IntOp.andi x v reducesTo_S20000_S_d0 h_S_) main_v21 main_c_7
  let main_v23 : IVec S_ 1 := andi main_v18 main_v22
  main_v23

def fn {F : FTy → Type} [FloatOps F] (main_arg0 : FVec F S1024x512 .f32) (main_arg1 : FVec F S4096 .f32) (main_arg2 : FVec F S4096 .f32) (main_arg3 : FVec F S20000x16x8 .f32) (main_arg4 : FVec F S20000 .f32) (main_arg5 : IVec S20000x16 32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S20000x16x8 .f32 := Host.absf main_arg3
  let main_cst_4 : FVec F S_ .f32 := constant S_ .f32 0x7F800000#32
  let main_v15 : FVec F S20000x16x8 .f32 := broadcastInDim S20000x16x8 ![] bcast_S_S20000x16x8 main_cst_4
  let main_v16 : IVec S20000x16x8 1 := cmpf .olt main_v14 main_v15
  fn_part1 (F := F) main_arg4 main_v13 main_v16
-- ==== Kernel.lean ====
abbrev S1024x512 : Shape := ⟨2, ![1024, 512]⟩
abbrev S4096 : Shape := ⟨1, ![4096]⟩
abbrev S20000x16x8 : Shape := ⟨3, ![20000, 16, 8]⟩
abbrev S20000 : Shape := ⟨1, ![20000]⟩
abbrev S20000x16 : Shape := ⟨2, ![20000, 16]⟩
abbrev S20000x16x1 : Shape := ⟨3, ![20000, 16, 1]⟩
abbrev S_ : Shape := ⟨0, ![]⟩
abbrev S8 : Shape := ⟨1, ![8]⟩
abbrev S1x1x8 : Shape := ⟨3, ![1, 1, 8]⟩
abbrev S20000x128 : Shape := ⟨2, ![20000, 128]⟩
abbrev S20000x1 : Shape := ⟨2, ![20000, 1]⟩
abbrev S20480x4096 : Shape := ⟨2, ![20480, 4096]⟩
abbrev S20000x128x1 : Shape := ⟨3, ![20000, 128, 1]⟩
abbrev S20000x128x2 : Shape := ⟨3, ![20000, 128, 2]⟩
abbrev S20480 : Shape := ⟨1, ![20480]⟩
abbrev S1 : Shape := ⟨1, ![1]⟩
abbrev S1024x20480 : Shape := ⟨2, ![1024, 20480]⟩
abbrev S1024x128 : Shape := ⟨2, ![1024, 128]⟩
abbrev S1024 : Shape := ⟨1, ![1024]⟩
abbrev S512x1024 : Shape := ⟨2, ![512, 1024]⟩
abbrev S512 : Shape := ⟨1, ![512]⟩
abbrev S1024x128x1 : Shape := ⟨3, ![1024, 128, 1]⟩
abbrev S1024x128x8 : Shape := ⟨3, ![1024, 128, 8]⟩
abbrev S1024x1024 : Shape := ⟨2, ![1024, 1024]⟩
abbrev S1x1024 : Shape := ⟨2, ![1, 1024]⟩
abbrev S1x512 : Shape := ⟨2, ![1, 512]⟩
abbrev S1024x20000 : Shape := ⟨2, ![1024, 20000]⟩

abbrev nBuf : Space → Nat
  | .hbm => 47
  | .vmem => 13
  | .smem => 0
  | _ => 0

abbrev bufTy : (tb : Table) → Fin (tcTables nBuf tb) → BufTy
  | .hbm, ⟨0, _⟩ => ⟨S1024x512, .f32⟩
  | .hbm, ⟨1, _⟩ => ⟨S4096, .f32⟩
  | .hbm, ⟨2, _⟩ => ⟨S4096, .f32⟩
  | .hbm, ⟨3, _⟩ => ⟨S20000x16x8, .f32⟩
  | .hbm, ⟨4, _⟩ => ⟨S20000, .f32⟩
  | .hbm, ⟨5, _⟩ => ⟨S20000x16, .i32⟩
  | .hbm, ⟨6, _⟩ => ⟨S20000x16x1, .i32⟩
  | .hbm, ⟨7, _⟩ => ⟨S_, .i32⟩
  | .hbm, ⟨8, _⟩ => ⟨S20000x16x1, .i32⟩
  | .hbm, ⟨9, _⟩ => ⟨S20000x16x1, .i32⟩
  | .hbm, ⟨10, _⟩ => ⟨S8, .i32⟩
  | .hbm, ⟨11, _⟩ => ⟨S1x1x8, .i32⟩
  | .hbm, ⟨12, _⟩ => ⟨S20000x16x8, .i32⟩
  | .hbm, ⟨13, _⟩ => ⟨S20000x16x8, .i32⟩
  | .hbm, ⟨14, _⟩ => ⟨S20000x16x8, .i32⟩
  | .hbm, ⟨15, _⟩ => ⟨S20000x128, .i32⟩
  | .hbm, ⟨16, _⟩ => ⟨S20000, .i32⟩
  | .hbm, ⟨17, _⟩ => ⟨S20000x1, .i32⟩
  | .hbm, ⟨18, _⟩ => ⟨S20000x128, .i32⟩
  | .hbm, ⟨19, _⟩ => ⟨S_, .f32⟩
  | .hbm, ⟨20, _⟩ => ⟨S20480x4096, .f32⟩
  | .hbm, ⟨21, _⟩ => ⟨S20000x128, .f32⟩
  | .hbm, ⟨22, _⟩ => ⟨S_, .i32⟩
  | .hbm, ⟨23, _⟩ => ⟨S20000x128, .i32⟩
  | .hbm, ⟨24, _⟩ => ⟨S20000x128, .i1⟩
  | .hbm, ⟨25, _⟩ => ⟨S_, .i32⟩
  | .hbm, ⟨26, _⟩ => ⟨S20000x128, .i32⟩
  | .hbm, ⟨27, _⟩ => ⟨S20000x128, .i32⟩
  | .hbm, ⟨28, _⟩ => ⟨S20000x128, .i32⟩
  | .hbm, ⟨29, _⟩ => ⟨S_, .i32⟩
  | .hbm, ⟨30, _⟩ => ⟨S20000x128, .i32⟩
  | .hbm, ⟨31, _⟩ => ⟨S20000x128, .i1⟩
  | .hbm, ⟨32, _⟩ => ⟨S_, .i32⟩
  | .hbm, ⟨33, _⟩ => ⟨S20000x128, .i32⟩
  | .hbm, ⟨34, _⟩ => ⟨S20000x128, .i32⟩
  | .hbm, ⟨35, _⟩ => ⟨S20000x128, .i32⟩
  | .hbm, ⟨36, _⟩ => ⟨S20000x128x1, .i32⟩
  | .hbm, ⟨37, _⟩ => ⟨S20000x128x1, .i32⟩
  | .hbm, ⟨38, _⟩ => ⟨S20000x128x2, .i32⟩
  | .hbm, ⟨39, _⟩ => ⟨S20480x4096, .f32⟩
  | .hbm, ⟨40, _⟩ => ⟨S_, .f32⟩
  | .hbm, ⟨41, _⟩ => ⟨S20480, .f32⟩
  | .hbm, ⟨42, _⟩ => ⟨S_, .i32⟩
  | .hbm, ⟨43, _⟩ => ⟨S1, .i32⟩
  | .hbm, ⟨44, _⟩ => ⟨S20480, .f32⟩
  | .hbm, ⟨45, _⟩ => ⟨S1024x20480, .f32⟩
  | .hbm, ⟨46, _⟩ => ⟨S1024x20000, .f32⟩
  | .local _ .vmem, ⟨0, _⟩ => ⟨S1024x128, .f32⟩
  | .local _ .vmem, ⟨1, _⟩ => ⟨S1024x128, .f32⟩
  | .local _ .vmem, ⟨2, _⟩ => ⟨S1024, .f32⟩
  | .local _ .vmem, ⟨3, _⟩ => ⟨S1024, .f32⟩
  | .local _ .vmem, ⟨4, _⟩ => ⟨S1024, .f32⟩
  | .local _ .vmem, ⟨5, _⟩ => ⟨S1024, .f32⟩
  | .local _ .vmem, ⟨6, _⟩ => ⟨S512x1024, .f32⟩
  | .local _ .vmem, ⟨7, _⟩ => ⟨S512x1024, .f32⟩
  | .local _ .vmem, ⟨8, _⟩ => ⟨S512, .f32⟩
  | .local _ .vmem, ⟨9, _⟩ => ⟨S512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_c_0 : Ref sig .tc := ⟨.hbm, 22, rfl⟩
abbrev main_v14 : Ref sig .tc := ⟨.hbm, 23, rfl⟩
abbrev main_v15 : Ref sig .tc := ⟨.hbm, 24, rfl⟩
abbrev main_c_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_c_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![40, 4], ![false, false]⟩

def k0_cond2 (i : grid0.Coords) : BitVec 1 :=
  let arg1 : BitVec 32 := BitVec.ofNat 32 (i 1).val
  let c3_i32 : BitVec 32 := 3#32
  let v31 : BitVec 1 := Scalar.cmpi .eq arg1 c3_i32
  let v32 : BitVec 32 := Scalar.extui v31
  let c0_i32_12 : BitVec 32 := 0#32
  let v33 : BitVec 1 := Scalar.cmpi .ne v32 c0_i32_12
  v33

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  bcast_S20000x16_S20000x16x1_0_1 : S20000x16.BroadcastsInDim S20000x16x1 (![0, 1] : Fin 2 → Fin S20000x16x1.rank)
  bcast_S_S20000x16x1 : S_.BroadcastsInDim S20000x16x1 (![] : Fin 0 → Fin S20000x16x1.rank)
  bcast_S8_S1x1x8_2 : S8.BroadcastsInDim S1x1x8 (![2] : Fin 1 → Fin S1x1x8.rank)
  bcast_S20000x16x1_S20000x16x8_0_1_2 : S20000x16x1.BroadcastsInDim S20000x16x8 (![0, 1, 2] : Fin 3 → Fin S20000x16x8.rank)
  bcast_S1x1x8_S20000x16x8_0_1_2 : S1x1x8.BroadcastsInDim S20000x16x8 (![0, 1, 2] : Fin 3 → Fin S20000x16x8.rank)
  shapeCasts_S20000x16x8_S20000x128 : S20000x16x8.ShapeCasts S20000x128
  bcast_S20000_S20000x1_0 : S20000.BroadcastsInDim S20000x1 (![0] : Fin 1 → Fin S20000x1.rank)
  bcast_S20000x1_S20000x128_0_1 : S20000x1.BroadcastsInDim S20000x128 (![0, 1] : Fin 2 → Fin S20000x128.rank)
  bcast_S_S20480x4096 : S_.BroadcastsInDim S20480x4096 (![] : Fin 0 → Fin S20480x4096.rank)
  bcast_S_S20000x128 : S_.BroadcastsInDim S20000x128 (![] : Fin 0 → Fin S20000x128.rank)
  bcast_S20000x128_S20000x128x1_0_1 : S20000x128.BroadcastsInDim S20000x128x1 (![0, 1] : Fin 2 → Fin S20000x128x1.rank)
  concatenates_S20000x128x1_S20000x128x1_S20000x128x2_d2 : Shape.Concatenates [S20000x128x1, S20000x128x1] S20000x128x2 2
  bcast_S_S20480 : S_.BroadcastsInDim S20480 (![] : Fin 0 → Fin S20480.rank)
  bcast_S_S1 : S_.BroadcastsInDim S1 (![] : Fin 0 → Fin S1.rank)
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x128_S1024x128_0_0 : ∀ a, (![0, 0] : Fin 2 → Nat) a + S1024x128.size a ≤ S1024x128.size a
  h_S1024x128 : 0 < S1024x128.numel
  shapeCasts_S1024x128_S1024x128x1 : S1024x128.ShapeCasts S1024x128x1
  shapeCasts_S1024x128x1_S1024x128x1 : S1024x128x1.ShapeCasts S1024x128x1
  broadcasts_S1024x128x1_S1024x128x8 : S1024x128x1.Broadcasts S1024x128x8
  shapeCasts_S1024x128x8_S1024x1024 : S1024x128x8.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512_S512_0 : ∀ a, (![0] : Fin 1 → Nat) a + S512.size a ≤ S512.size a
  h_S512 : 0 < S512.numel
  shapeCasts_S512_S512 : S512.ShapeCasts S512
  shapeCasts_S512_S1x512 : S512.ShapeCasts S1x512
  broadcasts_S1x512_S1024x512 : S1x512.Broadcasts S1024x512
  slices_S1024x20480_S1024x20000_0_0 : S1024x20480.Slices ![0, 0] S1024x20000
  scatter_S20480x4096_S20000x128x2_S20000x128_n_01_01_2_wf : ScatterDims.WF S20480x4096 S20000x128x2 S20000x128 [] [0, 1] [0, 1] 2
  scatter_S20480_S1_S20000_0_n_0_0_wf : ScatterDims.WF S20480 S1 S20000 [0] [] [0] 0
  dot_S1024x1024_S512x1024_S1024x512_1_1_0_0_n_n_wf : DotDims.WF S1024x1024 S512x1024 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S1024x512.size a
  hwx0_0 : ∀ i : grid0.Coords, EltTy.bits .f32 = 32 ∨ (Rect.block (s := S1024x512) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024.size a ≤ S4096.size a
  hwx0_1 : ∀ i : grid0.Coords, EltTy.bits .f32 = 32 ∨ (Rect.block (s := S4096) S1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S4096.size a
  hwx0_2 : ∀ i : grid0.Coords, EltTy.bits .f32 = 32 ∨ (Rect.block (s := S4096) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S20480x4096.size a
  hwx0_3 : ∀ i : grid0.Coords, EltTy.bits .f32 = 32 ∨ (Rect.block (s := S20480x4096) S512x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S20480.size a
  hwx0_4 : ∀ i : grid0.Coords, EltTy.bits .f32 = 32 ∨ (Rect.block (s := S20480) S512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S1024x20480.size a
  hwx0_5 : ∀ i : grid0.Coords, EltTy.bits .f32 = 32 ∨ (Rect.block (s := S1024x20480) S1024x512.size (cc0_transform_5 i) (hinb0_5 i)).WholeWords (EltTy.packing .f32)

variable [Facts₀]

def scatter_S20480x4096_S20000x128x2_S20000x128_n_01_01_2 : ScatterDims S20480x4096 S20000x128x2 S20000x128 where
  updateWindowDims := []
  insertedWindowDims := [0, 1]
  scatterDimsToOperandDims := [0, 1]
  indexVectorDim := 2
  wf := scatter_S20480x4096_S20000x128x2_S20000x128_n_01_01_2_wf
def scatter_S20480_S1_S20000_0_n_0_0 : ScatterDims S20480 S1 S20000 where
  updateWindowDims := [0]
  insertedWindowDims := []
  scatterDimsToOperandDims := [0]
  indexVectorDim := 0
  wf := scatter_S20480_S1_S20000_0_n_0_0_wf
def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v27) S512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v30) S512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v31) S1024x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S1024x512 : Shape := ⟨2, ![1024, 512]⟩
abbrev S4096 : Shape := ⟨1, ![4096]⟩
abbrev S20000x16x8 : Shape := ⟨3, ![20000, 16, 8]⟩
abbrev S20000 : Shape := ⟨1, ![20000]⟩
abbrev S20000x16 : Shape := ⟨2, ![20000, 16]⟩
abbrev S1024x512x8 : Shape := ⟨3, ![1024, 512, 8]⟩
abbrev S1024x4096 : Shape := ⟨2, ![1024, 4096]⟩
abbrev S1x4096 : Shape := ⟨2, ![1, 4096]⟩
abbrev S_ : Shape := ⟨0, ![]⟩
abbrev S20000x16x1 : Shape := ⟨3, ![20000, 16, 1]⟩
abbrev S8 : Shape := ⟨1, ![8]⟩
abbrev S1x1x8 : Shape := ⟨3, ![1, 1, 8]⟩
abbrev S20000x128 : Shape := ⟨2, ![20000, 128]⟩
abbrev S20000x1 : Shape := ⟨2, ![20000, 1]⟩
abbrev S20000x4096 : Shape := ⟨2, ![20000, 4096]⟩
abbrev S20000x128x1 : Shape := ⟨3, ![20000, 128, 1]⟩
abbrev S20000x128x2 : Shape := ⟨3, ![20000, 128, 2]⟩
abbrev S4096x20000 : Shape := ⟨2, ![4096, 20000]⟩
abbrev S1024x20000 : Shape := ⟨2, ![1024, 20000]⟩
abbrev S1x20000 : Shape := ⟨2, ![1, 20000]⟩

abbrev nBuf : Space → Nat
  | .hbm => 61
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S4096, .f32⟩
  | .hbm, ⟨2, _⟩ => ⟨S4096, .f32⟩
  | .hbm, ⟨3, _⟩ => ⟨S20000x16x8, .f32⟩
  | .hbm, ⟨4, _⟩ => ⟨S20000, .f32⟩
  | .hbm, ⟨5, _⟩ => ⟨S20000x16, .i32⟩
  | .hbm, ⟨6, _⟩ => ⟨S1024x512x8, .f32⟩
  | .hbm, ⟨7, _⟩ => ⟨S1024x4096, .f32⟩
  | .hbm, ⟨8, _⟩ => ⟨S1x4096, .f32⟩
  | .hbm, ⟨9, _⟩ => ⟨S1024x4096, .f32⟩
  | .hbm, ⟨10, _⟩ => ⟨S1024x4096, .f32⟩
  | .hbm, ⟨11, _⟩ => ⟨S1x4096, .f32⟩
  | .hbm, ⟨12, _⟩ => ⟨S1024x4096, .f32⟩
  | .hbm, ⟨13, _⟩ => ⟨S1024x4096, .f32⟩
  | .hbm, ⟨14, _⟩ => ⟨S_, .f32⟩
  | .hbm, ⟨15, _⟩ => ⟨S_, .f32⟩
  | .hbm, ⟨16, _⟩ => ⟨S1024x4096, .f32⟩
  | .hbm, ⟨17, _⟩ => ⟨S1024x4096, .i1⟩
  | .hbm, ⟨18, _⟩ => ⟨S_, .f32⟩
  | .hbm, ⟨19, _⟩ => ⟨S1024x4096, .f32⟩
  | .hbm, ⟨20, _⟩ => ⟨S1024x4096, .f32⟩
  | .hbm, ⟨21, _⟩ => ⟨S1024x4096, .f32⟩
  | .hbm, ⟨22, _⟩ => ⟨S20000x16x1, .i32⟩
  | .hbm, ⟨23, _⟩ => ⟨S_, .i32⟩
  | .hbm, ⟨24, _⟩ => ⟨S20000x16x1, .i32⟩
  | .hbm, ⟨25, _⟩ => ⟨S20000x16x1, .i32⟩
  | .hbm, ⟨26, _⟩ => ⟨S8, .i32⟩
  | .hbm, ⟨27, _⟩ => ⟨S1x1x8, .i32⟩
  | .hbm, ⟨28, _⟩ => ⟨S20000x16x8, .i32⟩
  | .hbm, ⟨29, _⟩ => ⟨S20000x16x8, .i32⟩
  | .hbm, ⟨30, _⟩ => ⟨S20000x16x8, .i32⟩
  | .hbm, ⟨31, _⟩ => ⟨S20000x128, .i32⟩
  | .hbm, ⟨32, _⟩ => ⟨S20000, .i32⟩
  | .hbm, ⟨33, _⟩ => ⟨S20000x1, .i32⟩
  | .hbm, ⟨34, _⟩ => ⟨S20000x128, .i32⟩
  | .hbm, ⟨35, _⟩ => ⟨S_, .f32⟩
  | .hbm, ⟨36, _⟩ => ⟨S20000x4096, .f32⟩
  | .hbm, ⟨37, _⟩ => ⟨S20000x128, .f32⟩
  | .hbm, ⟨38, _⟩ => ⟨S_, .i32⟩
  | .hbm, ⟨39, _⟩ => ⟨S20000x128, .i32⟩
  | .hbm, ⟨40, _⟩ => ⟨S20000x128, .i1⟩
  | .hbm, ⟨41, _⟩ => ⟨S_, .i32⟩
  | .hbm, ⟨42, _⟩ => ⟨S20000x128, .i32⟩
  | .hbm, ⟨43, _⟩ => ⟨S20000x128, .i32⟩
  | .hbm, ⟨44, _⟩ => ⟨S20000x128, .i32⟩
  | .hbm, ⟨45, _⟩ => ⟨S_, .i32⟩
  | .hbm, ⟨46, _⟩ => ⟨S20000x128, .i32⟩
  | .hbm, ⟨47, _⟩ => ⟨S20000x128, .i1⟩
  | .hbm, ⟨48, _⟩ => ⟨S_, .i32⟩
  | .hbm, ⟨49, _⟩ => ⟨S20000x128, .i32⟩
  | .hbm, ⟨50, _⟩ => ⟨S20000x128, .i32⟩
  | .hbm, ⟨51, _⟩ => ⟨S20000x128, .i32⟩
  | .hbm, ⟨52, _⟩ => ⟨S20000x128x1, .i32⟩
  | .hbm, ⟨53, _⟩ => ⟨S20000x128x1, .i32⟩
  | .hbm, ⟨54, _⟩ => ⟨S20000x128x2, .i32⟩
  | .hbm, ⟨55, _⟩ => ⟨S20000x4096, .f32⟩
  | .hbm, ⟨56, _⟩ => ⟨S4096x20000, .f32⟩
  | .hbm, ⟨57, _⟩ => ⟨S1024x20000, .f32⟩
  | .hbm, ⟨58, _⟩ => ⟨S1x20000, .f32⟩
  | .hbm, ⟨59, _⟩ => ⟨S1024x20000, .f32⟩
  | .hbm, ⟨60, _⟩ => ⟨S1024x20000, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_call0_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v8 : Ref sig .tc := ⟨.hbm, 21, rfl⟩
abbrev main_v9 : Ref sig .tc := ⟨.hbm, 22, rfl⟩
abbrev main_c : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_0 : Ref sig .tc := ⟨.hbm, 35, rfl⟩
abbrev main_v21 : Ref sig .tc := ⟨.hbm, 36, rfl⟩
abbrev main_v22 : Ref sig .tc := ⟨.hbm, 37, rfl⟩
abbrev main_c_1 : Ref sig .tc := ⟨.hbm, 38, rfl⟩
abbrev main_v23 : Ref sig .tc := ⟨.hbm, 39, rfl⟩
abbrev main_v24 : Ref sig .tc := ⟨.hbm, 40, rfl⟩
abbrev main_c_2 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_3 : Ref sig .tc := ⟨.hbm, 45, rfl⟩
abbrev main_v28 : Ref sig .tc := ⟨.hbm, 46, rfl⟩
abbrev main_v29 : Ref sig .tc := ⟨.hbm, 47, rfl⟩
abbrev main_c_4 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩

abbrev nD : Nat := 1
abbrev τ : Topo := Topo.v7x

variable {F : FTy → Type} [FloatOps F]

class Facts₀ : Prop where
  bcast_S1024x512_S1024x512x8_0_1 : S1024x512.BroadcastsInDim S1024x512x8 (![0, 1] : Fin 2 → Fin S1024x512x8.rank)
  shapeCasts_S1024x512x8_S1024x4096 : S1024x512x8.ShapeCasts S1024x4096
  bcast_S4096_S1x4096_1 : S4096.BroadcastsInDim S1x4096 (![1] : Fin 1 → Fin S1x4096.rank)
  bcast_S1x4096_S1024x4096_0_1 : S1x4096.BroadcastsInDim S1024x4096 (![0, 1] : Fin 2 → Fin S1024x4096.rank)
  bcast_S_S1024x4096 : S_.BroadcastsInDim S1024x4096 (![] : Fin 0 → Fin S1024x4096.rank)
  bcast_S20000x16_S20000x16x1_0_1 : S20000x16.BroadcastsInDim S20000x16x1 (![0, 1] : Fin 2 → Fin S20000x16x1.rank)
  bcast_S_S20000x16x1 : S_.BroadcastsInDim S20000x16x1 (![] : Fin 0 → Fin S20000x16x1.rank)
  bcast_S8_S1x1x8_2 : S8.BroadcastsInDim S1x1x8 (![2] : Fin 1 → Fin S1x1x8.rank)
  bcast_S20000x16x1_S20000x16x8_0_1_2 : S20000x16x1.BroadcastsInDim S20000x16x8 (![0, 1, 2] : Fin 3 → Fin S20000x16x8.rank)
  bcast_S1x1x8_S20000x16x8_0_1_2 : S1x1x8.BroadcastsInDim S20000x16x8 (![0, 1, 2] : Fin 3 → Fin S20000x16x8.rank)
  shapeCasts_S20000x16x8_S20000x128 : S20000x16x8.ShapeCasts S20000x128
  bcast_S20000_S20000x1_0 : S20000.BroadcastsInDim S20000x1 (![0] : Fin 1 → Fin S20000x1.rank)
  bcast_S20000x1_S20000x128_0_1 : S20000x1.BroadcastsInDim S20000x128 (![0, 1] : Fin 2 → Fin S20000x128.rank)
  bcast_S_S20000x4096 : S_.BroadcastsInDim S20000x4096 (![] : Fin 0 → Fin S20000x4096.rank)
  bcast_S_S20000x128 : S_.BroadcastsInDim S20000x128 (![] : Fin 0 → Fin S20000x128.rank)
  bcast_S20000x128_S20000x128x1_0_1 : S20000x128.BroadcastsInDim S20000x128x1 (![0, 1] : Fin 2 → Fin S20000x128x1.rank)
  concatenates_S20000x128x1_S20000x128x1_S20000x128x2_d2 : Shape.Concatenates [S20000x128x1, S20000x128x1] S20000x128x2 2
  transposes_S20000x4096_S4096x20000_1_0 : S20000x4096.Transposes [1, 0] S4096x20000
  bcast_S20000_S1x20000_1 : S20000.BroadcastsInDim S1x20000 (![1] : Fin 1 → Fin S1x20000.rank)
  bcast_S1x20000_S1024x20000_0_1 : S1x20000.BroadcastsInDim S1024x20000 (![0, 1] : Fin 2 → Fin S1024x20000.rank)
  scatter_S20000x4096_S20000x128x2_S20000x128_n_01_01_2_wf : ScatterDims.WF S20000x4096 S20000x128x2 S20000x128 [] [0, 1] [0, 1] 2
  dot_S1024x4096_S4096x20000_S1024x20000_1_0_0_1_n_n_wf : DotDims.WF S1024x4096 S4096x20000 S1024x20000 [1] [0] [0] [1] [] []

variable [Facts₀]

def scatter_S20000x4096_S20000x128x2_S20000x128_n_01_01_2 : ScatterDims S20000x4096 S20000x128x2 S20000x128 where
  updateWindowDims := []
  insertedWindowDims := [0, 1]
  scatterDimsToOperandDims := [0, 1]
  indexVectorDim := 2
  wf := scatter_S20000x4096_S20000x128x2_S20000x128_n_01_01_2_wf
def dot_S1024x4096_S4096x20000_S1024x20000_1_0_0_1_n_n : DotDims S1024x4096 S4096x20000 S1024x20000 where
  lhsContracting := [1]
  rhsContracting := [0]
  lhsNonContracting := [0]
  rhsNonContracting := [1]
  lhsBatch := []
  rhsBatch := []
  wf := dot_S1024x4096_S4096x20000_S1024x20000_1_0_0_1_n_n_wf

class Facts : Prop extends Facts₀ where

variable [Facts]
-- ==== Proof.KerTerms.lean ====
/-
  The kernel program's host chain before the pallas_call as functions of the argument arrays: the scatter's row and
  column words, the dense weight matrix padded to 20480 rows, and the bias padded with zeros to 20480 entries.
-/
import proofs.«182253_j45011257262638_1_alg».proof.Proof.Gen.KernelIdeal

noncomputable section

namespace Cert.KernelIdeal.Terms

open Cert.KernelIdeal Idealize.ShloMosaic
open Cert.KernelIdeal.Facts₀

variable {F : FTy → Type} [FloatOps F]

/-- The column word of edge (g, 8 k + n): 8 · gene_tf (g, k) + n, in 32-bit arithmetic. -/
def cols (gt : IVec S20000x16 32) : IVec S20000x128 32 :=
  shapeCast S20000x128
    (addi
      (broadcastInDim S20000x16x8 ![0, 1, 2] bcast_S20000x16x1_S20000x16x8_0_1_2
        (muli (broadcastInDim S20000x16x1 ![0, 1] bcast_S20000x16_S20000x16x1_0_1 gt)
          (broadcastInDim S20000x16x1 ![] bcast_S_S20000x16x1 (constantI S_ 32 8#32))))
      (broadcastInDim S20000x16x8 ![0, 1, 2] bcast_S1x1x8_S20000x16x8_0_1_2
        (broadcastInDim S1x1x8 ![2] bcast_S8_S1x1x8_2 (iotaInDim S8 32 0))))
    shapeCasts_S20000x16x8_S20000x128

/-- The row word of edge (g, j): g. -/
def rows : IVec S20000x128 32 :=
  broadcastInDim S20000x128 ![0, 1] bcast_S20000x1_S20000x128_0_1
    (broadcastInDim S20000x1 ![0] bcast_S20000_S20000x1_0 (iotaInDim S20000 32 0))

/-- A negative index word moved up by the axis length n. -/
def norm (n : BitVec 32) (x : IVec S20000x128 32) : IVec S20000x128 32 :=
  select (cmpi .slt x (broadcastInDim S20000x128 ![] bcast_S_S20000x128 (constantI S_ 32 0#32)))
    (addi x (broadcastInDim S20000x128 ![] bcast_S_S20000x128 (constantI S_ 32 n)))
    x

/-- The scatter's index pairs (row, column). -/
def sidx (gt : IVec S20000x16 32) : IVec S20000x128x2 32 :=
  concatenate S20000x128x2 2
    [⟨S20000x128x1, broadcastInDim S20000x128x1 ![0, 1] bcast_S20000x128_S20000x128x1_0_1 (norm 20480#32 rows)⟩,
     ⟨S20000x128x1, broadcastInDim S20000x128x1 ![0, 1] bcast_S20000x128_S20000x128x1_0_1 (norm 4096#32 (cols gt))⟩]
    concatenates_S20000x128x1_S20000x128x1_S20000x128x2_d2

/-- The dense weight matrix on 20480 rows: zero plus every edge weight added at its (row, column). -/
def wd (gt : IVec S20000x16 32) (w2 : FVec F S20000x16x8 .f32) : FVec F S20480x4096 .f32 :=
  Host.scatterAdd scatter_S20480x4096_S20000x128x2_S20000x128_n_01_01_2
    (broadcastInDim S20480x4096 ![] bcast_S_S20480x4096 (constant S_ .f32 0x00000000#32))
    (sidx gt)
    (shapeCast S20000x128 w2 shapeCasts_S20000x16x8_S20000x128)

/-- The bias on 20480 entries: zeros with the 20000 bias entries written from entry 0 on. -/
def b2pad (b2 : FVec F S20000 .f32) : FVec F S20480 .f32 :=
  Host.scatter scatter_S20480_S1_S20000_0_n_0_0 (fun _ b => b)
    (broadcastInDim S20480 ![] bcast_S_S20480 (constant S_ .f32 0x00000000#32))
    (broadcastInDim S1 ![] bcast_S_S1 (constantI S_ 32 0#32))
    b2

end Cert.KernelIdeal.Terms

end
-- ==== Proof.KerHost.lean ====
/-
  What the pallas_call finds in its arrays: the dense weight matrix and the padded bias are the host chain's terms
  of the argument arrays, and each input window's block at grid point t = 4 j + k (gene tile j, hidden tile k) is the
  corresponding rectangle of its array: features columns 128 k …, w1 and b1 entries 1024 k …, dense rows 512 j … and
  columns 1024 k …, bias entries 512 j ….
-/
import proofs.«182253_j45011257262638_1_alg».proof.Proof.Gen.KernelIdeal.Frame
import proofs.«182253_j45011257262638_1_alg».proof.Proof.KerTerms
import Idealize.ShloMosaic.Lib.ValueIdx
import Idealize.ShloMosaic.Lib.Pipeline.Value
import Idealize.ShloMosaic.Lib.StableHlo.Run

noncomputable section

namespace Cert.KernelIdeal.Host

open Cert.KernelIdeal Cert.KernelIdeal.Gen Idealize.ShloMosaic Idealize.ShloMosaic.TcCoe Idealize.ShloMosaic.ValueIdx Idealize.SL.Sem

variable {F : FTy → Type} [FloatOps F]
variable (m : (ℓ : Loc nD τ sig) → Buf (Elt F) ℓ)

/-- The input blocks at a grid point, at their literal vector types. -/
abbrev xb (c : Dev nD) (t : Fin cfg0.N) : Vec F S1024x128 .f32 := iblk m c 0 t
abbrev w1b (c : Dev nD) (t : Fin cfg0.N) : Vec F S1024 .f32 := iblk m c 1 t
abbrev b1b (c : Dev nD) (t : Fin cfg0.N) : Vec F S1024 .f32 := iblk m c 2 t
abbrev wdb (c : Dev nD) (t : Fin cfg0.N) : Vec F S512x1024 .f32 := iblk m c 3 t
abbrev b2b (c : Dev nD) (t : Fin cfg0.N) : Vec F S512 .f32 := iblk m c 4 t

/-- The array of window 3 is the host chain's last scatter-add: every operand read back through the operations that
    wrote it, down to the argument arrays; the two index columns inside the concatenate's operand list are equal to
    their terms by computation. -/
theorem V_wd (c : Dev nD) :
    (V m c main_v27 : S20480x4096.Idx → F .f32) = Terms.wd (m ((c.tc : Thread nD τ).loc main_arg5)) (m ((c.tc : Thread nD τ).loc main_arg3)) := by
  show StableHlo.after hostOps0 (fun b => m (c, b)) (Proc.devRef .tc main_v27) = _
  unfold Terms.wd Terms.sidx Terms.norm Terms.rows Terms.cols
  after_results_simp
  rfl

/-- The array of window 4 is the host chain's scatter of the bias into zeros. -/
theorem V_b2pad (c : Dev nD) :
    (V m c main_v30 : S20480.Idx → F .f32) = Terms.b2pad (m ((c.tc : Thread nD τ).loc main_arg4)) := by
  show StableHlo.after hostOps0 (fun b => m (c, b)) (Proc.devRef .tc main_v30) = _
  unfold Terms.b2pad
  after_results_simp

/-- The windows' block indices over the grid (t = 4 j + k): windows 0, 1, 2 move with k, window 3 with (j, k), window 4 with j. -/
private theorem idx0 : ∀ t : Fin cfg0.N, win0_0.index t (0 : Fin 2) = 0 ∧ win0_0.index t (1 : Fin 2) = t.val % 4 := by decide +kernel
private theorem idx1 : ∀ t : Fin cfg0.N, win0_1.index t (0 : Fin 1) = t.val % 4 := by decide +kernel
private theorem idx2 : ∀ t : Fin cfg0.N, win0_2.index t (0 : Fin 1) = t.val % 4 := by decide +kernel
private theorem idx3 : ∀ t : Fin cfg0.N, win0_3.index t (0 : Fin 2) = t.val / 4 ∧ win0_3.index t (1 : Fin 2) = t.val % 4 := by decide +kernel
private theorem idx4 : ∀ t : Fin cfg0.N, win0_4.index t (0 : Fin 1) = t.val / 4 := by decide +kernel

/-- A grid point is below 160. -/
private theorem t_lt (t : Fin cfg0.N) : t.val < 160 := lt_of_lt_of_eq t.isLt N_0

theorem xb_apply (c : Dev nD) (t : Fin cfg0.N) (b : Fin 1024) (p : Fin 128) :
    xb m c t (ix2 b p) = (m ((c.tc : Thread nD τ).loc main_arg0)) (ix2 b (⟨(t.val % 4) * 128 + p.val, by omega⟩ : Fin 512)) := by
  unfold xb iblk
  rw [View.read_apply]
  show V m c main_arg0 _ = _
  rw [V_main_arg0]
  congr 1
  funext a
  apply Fin.ext
  match a with
  | ⟨0, _⟩ => show win0_0.index t 0 * 1024 + 1 * b.val = b.val; rw [(idx0 t).1]; omega
  | ⟨1, _⟩ => show win0_0.index t 1 * 128 + 1 * p.val = t.val % 4 * 128 + p.val; rw [(idx0 t).2]; omega

theorem w1b_apply (c : Dev nD) (t : Fin cfg0.N) (q : Fin 1024) :
    w1b m c t (ix1 q) = (m ((c.tc : Thread nD τ).loc main_arg1)) (ix1 (⟨(t.val % 4) * 1024 + q.val, by omega⟩ : Fin 4096)) := by
  unfold w1b iblk
  rw [View.read_apply]
  show V m c main_arg1 _ = _
  rw [V_main_arg1]
  congr 1
  funext a
  apply Fin.ext
  match a with
  | ⟨0, _⟩ => show win0_1.index t 0 * 1024 + 1 * q.val = t.val % 4 * 1024 + q.val; rw [idx1 t]; omega

theorem b1b_apply (c : Dev nD) (t : Fin cfg0.N) (q : Fin 1024) :
    b1b m c t (ix1 q) = (m ((c.tc : Thread nD τ).loc main_arg2)) (ix1 (⟨(t.val % 4) * 1024 + q.val, by omega⟩ : Fin 4096)) := by
  unfold b1b iblk
  rw [View.read_apply]
  show V m c main_arg2 _ = _
  rw [V_main_arg2]
  congr 1
  funext a
  apply Fin.ext
  match a with
  | ⟨0, _⟩ => show win0_2.index t 0 * 1024 + 1 * q.val = t.val % 4 * 1024 + q.val; rw [idx2 t]; omega

theorem wdb_apply (c : Dev nD) (t : Fin cfg0.N) (n : Fin 512) (q : Fin 1024) :
    wdb m c t (ix2 n q) = Terms.wd (m ((c.tc : Thread nD τ).loc main_arg5)) (m ((c.tc : Thread nD τ).loc main_arg3))
      (ix2 (⟨((t.val / 4) % 40) * 512 + n.val, by omega⟩ : Fin 20480) (⟨(t.val % 4) * 1024 + q.val, by omega⟩ : Fin 4096)) := by
  have ht := t_lt t
  unfold wdb iblk
  rw [View.read_apply]
  show V m c main_v27 _ = _
  rw [V_wd]
  congr 1
  funext a
  apply Fin.ext
  match a with
  | ⟨0, _⟩ => show win0_3.index t 0 * 512 + 1 * n.val = t.val / 4 % 40 * 512 + n.val; rw [(idx3 t).1]; omega
  | ⟨1, _⟩ => show win0_3.index t 1 * 1024 + 1 * q.val = t.val % 4 * 1024 + q.val; rw [(idx3 t).2]; omega

theorem b2b_apply (c : Dev nD) (t : Fin cfg0.N) (n : Fin 512) :
    b2b m c t (ix1 n) = Terms.b2pad (m ((c.tc : Thread nD τ).loc main_arg4)) (ix1 (⟨((t.val / 4) % 40) * 512 + n.val, by omega⟩ : Fin 20480)) := by
  have ht := t_lt t
  unfold b2b iblk
  rw [View.read_apply]
  show V m c main_v30 _ = _
  rw [V_b2pad]
  congr 1
  funext a
  apply Fin.ext
  match a with
  | ⟨0, _⟩ => show win0_4.index t 0 * 512 + 1 * n.val = t.val / 4 % 40 * 512 + n.val; rw [idx4 t]; omega

end Cert.KernelIdeal.Host

end
-- ==== Proof.KerPieces.lean ====
/-
  What each control case of the kernel body leaves behind, as the body's pure payloads: at a first hidden tile the
  accumulator is the matmul step over a zeroed accumulator; at a later tile the step over what the point before left;
  at the last tile the output block is moreover that accumulator plus the bias block.
-/
import proofs.«182253_j45011257262638_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

/-- The zero offset of a rank-2 block, as the constant function. -/
private theorem hz2 : (![0, 0] : Fin 2 → Nat) = fun _ => 0 := funext fun a => by fin_cases a <;> rfl

/-- The zero offset of a rank-1 block, as the constant function. -/
private theorem hz1 : (![0] : Fin 1 → Nat) = fun _ => 0 := funext fun a => by fin_cases a; rfl

theorem sout_A (c : Dev nD) (i : grid0.Coords) (arg2 : Memref sig .tc .vmem S1024x128 .f32) (harg2 : arg2.IsWhole) (arg3 : Memref sig .tc .vmem S1024 .f32) (harg3 : arg3.IsWhole) (arg4 : Memref sig .tc .vmem S1024 .f32) (harg4 : arg4.IsWhole) (arg5 : Memref sig .tc .vmem S512x1024 .f32) (harg5 : arg5.IsWhole) (arg6 : Memref sig .tc .vmem S512 .f32) (harg6 : arg6.IsWhole) (arg7 : Memref sig .tc .vmem S1024x512 .f32) (harg7 : arg7.IsWhole) (arg8 : Memref sig .tc .vmem S1024x512 .f32) (harg8 : arg8.IsWhole) (hc0 : cond0_0 i) (hc1 : ¬cond0_1 i)
    (x0 : Vec F S1024x128 .f32) (x1 : Vec F S1024 .f32) (x2 : Vec F S1024 .f32) (x3 : Vec F S512x1024 .f32) (x4 : Vec F S512 .f32) :
    sout0_A_0 c i arg2 harg2 arg3 harg3 arg4 harg4 arg5 harg5 arg6 harg6 arg7 harg7 arg8 harg8 hc0 hc1 x0 x1 x2 x3 x4 = k0_pay2 x0 x1 x2 x3 (k0_pay1 (F := F)) := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A
  dsimp only
  sl_unfold_words
  rw [View.canon_cons_unit_zero (S := S1024x512) hz2, View.readCov_unit_zero (S := S1024x512) _ hz2]
  simp only [View.readAt_eq_ld, harg2.read_unread, harg3.read_unread, harg4.read_unread, harg5.read_unread, harg6.read_unread, harg8.read_unread, View.ld_unit_zero (S := S1024x128) hz2, View.ld_unit_zero (S := S1024) hz1, View.ld_unit_zero (S := S512x1024) hz2, View.ld_unit_zero (S := S1024x512) hz2, View.ld_unit_zero (S := S512) hz1]

theorem sout_B (c : Dev nD) (i : grid0.Coords) (arg2 : Memref sig .tc .vmem S1024x128 .f32) (harg2 : arg2.IsWhole) (arg3 : Memref sig .tc .vmem S1024 .f32) (harg3 : arg3.IsWhole) (arg4 : Memref sig .tc .vmem S1024 .f32) (harg4 : arg4.IsWhole) (arg5 : Memref sig .tc .vmem S512x1024 .f32) (harg5 : arg5.IsWhole) (arg6 : Memref sig .tc .vmem S512 .f32) (harg6 : arg6.IsWhole) (arg7 : Memref sig .tc .vmem S1024x512 .f32) (harg7 : arg7.IsWhole) (arg8 : Memref sig .tc .vmem S1024x512 .f32) (harg8 : arg8.IsWhole) (hc0 : ¬cond0_0 i) (hc1 : ¬cond0_1 i)
    (x0 : Vec F S1024x128 .f32) (x1 : Vec F S1024 .f32) (x2 : Vec F S1024 .f32) (x3 : Vec F S512x1024 .f32) (x4 : Vec F S512 .f32) (xs0 : Vec F S1024x512 .f32) :
    sout0_B_0 c i arg2 harg2 arg3 harg3 arg4 harg4 arg5 harg5 arg6 harg6 arg7 harg7 arg8 harg8 hc0 hc1 x0 x1 x2 x3 x4 xs0 = k0_pay2 x0 x1 x2 x3 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 x4 xs0)]
  unfold kernelRun0_B
  dsimp only
  sl_unfold_words
  rw [View.canon_unit_zero hz2]
  simp only [View.readAt_eq_ld, harg2.read_unread, harg3.read_unread, harg4.read_unread, harg5.read_unread, harg6.read_unread, harg8.read_unread, View.ld_unit_zero (S := S1024x128) hz2, View.ld_unit_zero (S := S1024) hz1, View.ld_unit_zero (S := S512x1024) hz2, View.ld_unit_zero (S := S1024x512) hz2, View.ld_unit_zero (S := S512) hz1]

theorem sout_C (c : Dev nD) (i : grid0.Coords) (arg2 : Memref sig .tc .vmem S1024x128 .f32) (harg2 : arg2.IsWhole) (arg3 : Memref sig .tc .vmem S1024 .f32) (harg3 : arg3.IsWhole) (arg4 : Memref sig .tc .vmem S1024 .f32) (harg4 : arg4.IsWhole) (arg5 : Memref sig .tc .vmem S512x1024 .f32) (harg5 : arg5.IsWhole) (arg6 : Memref sig .tc .vmem S512 .f32) (harg6 : arg6.IsWhole) (arg7 : Memref sig .tc .vmem S1024x512 .f32) (harg7 : arg7.IsWhole) (arg8 : Memref sig .tc .vmem S1024x512 .f32) (harg8 : arg8.IsWhole) (hc0 : ¬cond0_0 i) (hc1 : cond0_1 i)
    (x0 : Vec F S1024x128 .f32) (x1 : Vec F S1024 .f32) (x2 : Vec F S1024 .f32) (x3 : Vec F S512x1024 .f32) (x4 : Vec F S512 .f32) (xs0 : Vec F S1024x512 .f32) :
    sout0_C_0 c i arg2 harg2 arg3 harg3 arg4 harg4 arg5 harg5 arg6 harg6 arg7 harg7 arg8 harg8 hc0 hc1 x0 x1 x2 x3 x4 xs0 = k0_pay2 x0 x1 x2 x3 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero hz2]
  simp only [View.readAt_eq_ld, harg2.read_unread, harg3.read_unread, harg4.read_unread, harg5.read_unread, harg6.read_unread, harg8.read_unread, View.ld_unit_zero (S := S1024x128) hz2, View.ld_unit_zero (S := S1024) hz1, View.ld_unit_zero (S := S512x1024) hz2, View.ld_unit_zero (S := S1024x512) hz2, View.ld_unit_zero (S := S512) hz1]

theorem out_C (c : Dev nD) (i : grid0.Coords) (arg2 : Memref sig .tc .vmem S1024x128 .f32) (harg2 : arg2.IsWhole) (arg3 : Memref sig .tc .vmem S1024 .f32) (harg3 : arg3.IsWhole) (arg4 : Memref sig .tc .vmem S1024 .f32) (harg4 : arg4.IsWhole) (arg5 : Memref sig .tc .vmem S512x1024 .f32) (harg5 : arg5.IsWhole) (arg6 : Memref sig .tc .vmem S512 .f32) (harg6 : arg6.IsWhole) (arg7 : Memref sig .tc .vmem S1024x512 .f32) (harg7 : arg7.IsWhole) (arg8 : Memref sig .tc .vmem S1024x512 .f32) (harg8 : arg8.IsWhole) (hc0 : ¬cond0_0 i) (hc1 : cond0_1 i)
    (x0 : Vec F S1024x128 .f32) (x1 : Vec F S1024 .f32) (x2 : Vec F S1024 .f32) (x3 : Vec F S512x1024 .f32) (x4 : Vec F S512 .f32) (xs0 : Vec F S1024x512 .f32) :
    out0_C_5 c i arg2 harg2 arg3 harg3 arg4 harg4 arg5 harg5 arg6 harg6 arg7 harg7 arg8 harg8 hc0 hc1 x0 x1 x2 x3 x4 xs0 = k0_pay3 (k0_pay2 x0 x1 x2 x3 xs0) x4 := by
  unfold out0_C_5
  rw [View.read_writes_eq_canon _ _ _ (cover0_C_5 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero hz2]
  simp only [View.readAt_eq_ld, harg2.read_unread, harg3.read_unread, harg4.read_unread, harg5.read_unread, harg6.read_unread, harg8.read_unread, View.ld_unit_zero (S := S1024x128) hz2, View.ld_unit_zero (S := S1024) hz1, View.ld_unit_zero (S := S512x1024) hz2, View.ld_unit_zero (S := S1024x512) hz2, View.ld_unit_zero (S := S512) hz1, View.readCov_unit_zero (S := S1024x512) _ hz2]

end Cert.KernelIdeal.Pieces

end
-- ==== Proof.Spec.lean ====
/-
  The mathematics both programs compute, index by index on the extended reals. A hidden node h of batch row b holds
  the leaky rectifier of feature (b, h / 8) · w1 h + b1 h; an output entry (b, g) is the sum over the 4096 hidden nodes
  of hidden (b, h) · dense (g, h), plus bias g. The tiled kernel reaches the same sum as four partial sums of 1024
  hidden nodes each, added one after the other.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx
open scoped BigOperators

/-- The leaky rectifier on one extended real: p where p ≥ 0, else the slope literal times p. -/
def act (p : Ideal .f32) : Ideal .f32 :=
  Scalar.select (FloatOps.cmpf (F := Ideal) .oge p (Ideal.ofBits .f32 0x00000000#32)) p (Ideal.ofBits .f32 0x3C23D70A#32 * p)

/-- Hidden node h of batch row b. -/
def hidAt (x : (⟨2, ![1024, 512]⟩ : Shape).Idx → EReal) (w1 b1 : (⟨1, ![4096]⟩ : Shape).Idx → EReal) (b : Fin 1024) (h : Fin 4096) : EReal :=
  act (x (ix2 b (⟨h.val / 8, by omega⟩ : Fin 512)) * w1 (ix1 h) + b1 (ix1 h))

/-- Hidden node 1024 k + q, for a tile number k (read modulo 4) and a position q in the tile. -/
def hnode (k : Nat) (q : Fin 1024) : Fin 4096 := ⟨(k % 4) * 1024 + q.val, by omega⟩

/-- The partial product of tile k: the sum over the tile's 1024 hidden nodes of hidden (b, ·) times a weight row W. -/
def tileAt (x : (⟨2, ![1024, 512]⟩ : Shape).Idx → EReal) (w1 b1 : (⟨1, ![4096]⟩ : Shape).Idx → EReal) (W : Fin 4096 → EReal)
    (b : Fin 1024) (k : Nat) : EReal :=
  ∑ q : Fin 1024, hidAt x w1 b1 b (hnode k q) * W (hnode k q)

/-- The accumulator after tiles 0 … k: zero plus tile 0, then each further tile added on the right. -/
def accAt (x : (⟨2, ![1024, 512]⟩ : Shape).Idx → EReal) (w1 b1 : (⟨1, ![4096]⟩ : Shape).Idx → EReal) (W : Fin 4096 → EReal)
    (b : Fin 1024) : Nat → EReal
  | 0 => 0 + tileAt x w1 b1 W b 0
  | k + 1 => accAt x w1 b1 W b k + tileAt x w1 b1 W b (k + 1)

end Cert.Spec

end
-- ==== Proof.KerPayload.lean ====
/-
  The kernel body's payloads read at an index, on the extended reals. The reset payload is zero. The matmul step at
  (b, n) is the accumulator there plus the sum over the tile's 1024 positions q of the leaky rectifier of
  feature-block (b, q / 8) · w1-block q + b1-block q, times dense-block (n, q). The closing payload adds bias-block n.
-/
import proofs.«182253_j45011257262638_1_alg».proof.Proof.Gen.KernelIdeal.Skeleton
import proofs.«182253_j45011257262638_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx
open scoped BigOperators

theorem pay1_apply (i : S1024x512.Idx) : k0_pay1 (F := Ideal) i = 0 := by
  unfold k0_pay1
  rw [shapeCast_self]
  exact Ideal.ofBits_zero_f32

/-- A length-a vector laid as one row and repeated over m rows reads, at (p, c), the vector at c. -/
private theorem rowOver_apply {a m : Nat} (x : (⟨1, ![a]⟩ : Shape).Idx → Ideal .f32)
    (h1 : (⟨1, ![a]⟩ : Shape).ShapeCasts ⟨2, ![1, a]⟩) (h2 : (⟨2, ![1, a]⟩ : Shape).Broadcasts ⟨2, ![m, a]⟩)
    (p : Fin m) (c : Fin a) :
    broadcastTo ⟨2, ![m, a]⟩ (shapeCast ⟨2, ![1, a]⟩ x h1) h2 (ix2 p c) = x (ix1 c) :=
  (broadcastTo_1b_ab_apply _ h2 p c).trans (shapeCast_a_1a_apply x h1 0 c)

/-- The feature block [1024,128], each entry repeated 8 times along a new last axis and the result re-laid row-major as
    [1024,1024], reads at (b, q) the entry (b, q / 8): position 1024 b + q is 8 (128 b + q / 8) + q % 8. -/
private theorem feat_apply (x0 : S1024x128.Idx → Ideal .f32)
    (h1 : S1024x128.ShapeCasts S1024x128x1) (h2 : S1024x128x1.ShapeCasts S1024x128x1)
    (h3 : S1024x128x1.Broadcasts S1024x128x8) (h4 : S1024x128x8.ShapeCasts S1024x1024)
    (b q : Fin 1024) :
    shapeCast S1024x1024 (broadcastTo S1024x128x8 (shapeCast S1024x128x1 (shapeCast S1024x128x1 x0 h1) h2) h3) h4 (ix2 b q)
      = x0 (ix2 b (⟨q.val / 8, by omega⟩ : Fin 128)) := by
  rw [shapeCast_self]
  refine (shapeCast_apply _ h4 (ix2 b q) (ix3 b (⟨q.val / 8, by omega⟩ : Fin 128) (⟨q.val % 8, by omega⟩ : Fin 8)) ?_).trans ?_
  · rw [Shape.rowMajor_val_three, Shape.rowMajor_val_two]
    show (b.val * 128 + q.val / 8) * 8 + q.val % 8 = b.val * 1024 + q.val
    omega
  refine (broadcastTo_apply _ h3 _ (ix3 b (⟨q.val / 8, by omega⟩ : Fin 128) (0 : Fin 1)) ?_).trans ?_
  · intro ax
    match ax with
    | ⟨0, _⟩ => rfl
    | ⟨1, _⟩ => rfl
    | ⟨2, _⟩ => rfl
  refine shapeCast_apply x0 h1 _ _ ?_
  rw [Shape.rowMajor_val_three, Shape.rowMajor_val_two]
  show b.val * 128 + q.val / 8 = (b.val * 128 + q.val / 8) * 1 + 0
  omega

/-! The contraction's operand indices, coordinate by coordinate: both operands are contracted along their axis 1, and
    axis 0 of the left (right) operand follows axis 0 (axis 1) of the result. -/

private theorem lhs_mm_0 (i : S1024x512.Idx) (q : dot_S1024x1024_S512x1024_S1024x512_1_1_0_0_n_n.contr.Idx) :
    (dot_S1024x1024_S512x1024_S1024x512_1_1_0_0_n_n.lhsIdx i q 0).val = (i 0).val := by
  unfold DotDims.lhsIdx
  rw [dif_neg (show ¬(0 : Fin S1024x1024.rank) ∈ dot_S1024x1024_S512x1024_S1024x512_1_1_0_0_n_n.lhsBatch by decide),
    dif_pos (show (0 : Fin S1024x1024.rank) ∈ dot_S1024x1024_S512x1024_S1024x512_1_1_0_0_n_n.lhsNonContracting by decide)]
  rfl

private theorem lhs_mm_1 (i : S1024x512.Idx) (q : dot_S1024x1024_S512x1024_S1024x512_1_1_0_0_n_n.contr.Idx) :
    (dot_S1024x1024_S512x1024_S1024x512_1_1_0_0_n_n.lhsIdx i q 1).val = (q ⟨0, by decide⟩).val :=
  dot_S1024x1024_S512x1024_S1024x512_1_1_0_0_n_n.lhsIdx_val_of_single rfl i q

private theorem rhs_mm_0 (i : S1024x512.Idx) (q : dot_S1024x1024_S512x1024_S1024x512_1_1_0_0_n_n.contr.Idx) :
    (dot_S1024x1024_S512x1024_S1024x512_1_1_0_0_n_n.rhsIdx i q 0).val = (i 1).val := by
  unfold DotDims.rhsIdx
  rw [dif_neg (show ¬(0 : Fin S512x1024.rank) ∈ dot_S1024x1024_S512x1024_S1024x512_1_1_0_0_n_n.rhsBatch by decide),
    dif_pos (show (0 : Fin S512x1024.rank) ∈ dot_S1024x1024_S512x1024_S1024x512_1_1_0_0_n_n.rhsNonContracting by decide)]
  rfl

private theorem rhs_mm_1 (i : S1024x512.Idx) (q : dot_S1024x1024_S512x1024_S1024x512_1_1_0_0_n_n.contr.Idx) :
    (dot_S1024x1024_S512x1024_S1024x512_1_1_0_0_n_n.rhsIdx i q 1).val = (q ⟨0, by decide⟩).val :=
  dot_S1024x1024_S512x1024_S1024x512_1_1_0_0_n_n.rhsIdx_val_of_single rfl i q

/-- The matrix product into the zero splat, read at (b, n): the sum over the 1024 contracted positions q of
    left (b, q) times right (n, q). -/
private theorem mm_apply (L : FVec Ideal S1024x1024 .bf16) (R : FVec Ideal S512x1024 .bf16) (b : Fin 1024) (n : Fin 512) :
    matmul dot_S1024x1024_S512x1024_S1024x512_1_1_0_0_n_n none L R (constant (F := Ideal) S1024x512 .f32 0x00000000#32) (ix2 b n)
      = ∑ q : Fin 1024, L (ix2 b q) * R (ix2 n q) := by
  simp only [matmul]
  rw [Ideal.matmul_constant_zero_apply, ← Equiv.sum_comp (contrEquiv1 dot_S1024x1024_S512x1024_S1024x512_1_1_0_0_n_n 1024 rfl rfl).symm]
  refine Finset.sum_congr rfl fun k _ => ?_
  have hk := contrEquiv1_symm_val dot_S1024x1024_S512x1024_S1024x512_1_1_0_0_n_n 1024 rfl rfl k
  have el : dot_S1024x1024_S512x1024_S1024x512_1_1_0_0_n_n.lhsIdx (ix2 b n) ((contrEquiv1 dot_S1024x1024_S512x1024_S1024x512_1_1_0_0_n_n 1024 rfl rfl).symm k) = ix2 b k :=
    funext fun a => Fin.ext (by
      match a with
      | ⟨0, _⟩ => exact lhs_mm_0 _ _
      | ⟨1, _⟩ => exact (lhs_mm_1 _ _).trans hk)
  have er : dot_S1024x1024_S512x1024_S1024x512_1_1_0_0_n_n.rhsIdx (ix2 b n) ((contrEquiv1 dot_S1024x1024_S512x1024_S1024x512_1_1_0_0_n_n 1024 rfl rfl).symm k) = ix2 n k :=
    funext fun a => Fin.ext (by
      match a with
      | ⟨0, _⟩ => exact rhs_mm_0 _ _
      | ⟨1, _⟩ => exact (rhs_mm_1 _ _).trans hk)
  rw [el, er]

/-- The leaky rectifier applied entry by entry, then narrowed (the identity on extended reals). -/
private theorem act_apply (P : FVec Ideal S1024x1024 .f32) (h : FTy.bits .bf16 < FTy.bits .f32) (j : S1024x1024.Idx) :
    truncf .bf16 (select (cmpf .oge P (broadcast S1024x1024 (Scalar.ofBits (F := Ideal) .f32 0x00000000#32))) P
      (mulf (broadcast S1024x1024 (Scalar.ofBits (F := Ideal) .f32 0x3C23D70A#32)) P)) h j = Cert.Spec.act (P j) := rfl

theorem pay2_apply (x0 : Vec Ideal S1024x128 .f32) (x1 x2 : Vec Ideal S1024 .f32) (x3 : Vec Ideal S512x1024 .f32) (a : Vec Ideal S1024x512 .f32)
    (b : Fin 1024) (n : Fin 512) :
    k0_pay2 (F := Ideal) x0 x1 x2 x3 a (ix2 b n)
      = a (ix2 b n) + ∑ q : Fin 1024, Cert.Spec.act (x0 (ix2 b (⟨q.val / 8, by omega⟩ : Fin 128)) * x1 (ix1 q) + x2 (ix1 q)) * x3 (ix2 n q) := by
  unfold k0_pay2
  -- the closing cast keeps the shape; the sum of the accumulator and the product reads entry by entry
  refine (congrFun (shapeCast_self _ _) _).trans ?_
  refine (addf_apply _ _ _).trans ?_
  refine congrArg (a (ix2 b n) + ·) ?_
  refine (mm_apply _ _ b n).trans ?_
  refine Finset.sum_congr rfl fun q _ => ?_
  refine congrArg₂ (· * ·) ?_ ?_
  · -- the left factor: the rectifier of feature (b, q / 8) · w1 q + b1 q
    refine (act_apply _ _ _).trans (congrArg Cert.Spec.act ?_)
    refine (addf_apply _ _ _).trans ?_
    exact congrArg₂ (· + ·)
      ((mulf_apply _ _ _).trans (congrArg₂ (· * ·) (feat_apply x0 _ _ _ _ b q) (rowOver_apply x1 _ _ b q)))
      (rowOver_apply x2 _ _ b q)
  · -- the right factor: the dense block itself, cast to its own shape and narrowed
    refine (truncf_apply (φ := .f32) (ψ := .bf16) _ _ _).trans ?_
    exact congrFun (shapeCast_self _ _) _

theorem pay3_apply (a : Vec Ideal S1024x512 .f32) (x4 : Vec Ideal S512 .f32) (b : Fin 1024) (n : Fin 512) :
    k0_pay3 (F := Ideal) a x4 (ix2 b n) = a (ix2 b n) + x4 (ix1 n) := by
  unfold k0_pay3
  rw [shapeCast_self]
  refine (addf_apply _ _ _).trans ?_
  exact congrArg (a (ix2 b n) + ·) (rowOver_apply x4 _ _ b n)

end Cert.KernelIdeal.Payload

end
-- ==== Proof.SpecOut.lean ====
/-
  The tiled kernel's padded result entry as one function of the arrays: at batch row b and padded gene r, the
  accumulator after the four hidden tiles over row r of the padded dense matrix, plus padded bias r.
-/
import proofs.«182253_j45011257262638_1_alg».proof.Proof.Spec

noncomputable section

namespace Cert.Spec

open Idealize.ShloMosaic Idealize.ShloMosaic.ValueIdx

def outK (x : (⟨2, ![1024, 512]⟩ : Shape).Idx → EReal) (w1 b1 : (⟨1, ![4096]⟩ : Shape).Idx → EReal)
    (WD : (⟨2, ![20480, 4096]⟩ : Shape).Idx → EReal) (BP : (⟨1, ![20480]⟩ : Shape).Idx → EReal) (b : Fin 1024) (r : Fin 20480) : EReal :=
  accAt x w1 b1 (fun h => WD (ix2 r h)) b 3 + BP (ix1 r)

end Cert.Spec

end
-- ==== Proof.KerValue.lean ====
/-
  The kernel's value, read off its frame run on the extended reals. The grid has 40 gene tiles of 512 genes and, inside
  each, 4 hidden tiles of 1024 hidden nodes; point t = 4 j + k handles gene tile j and hidden tile k. The accumulator
  scratch after point t holds, at (b, n), zero plus the partial products of hidden tiles 0 … k for gene 512 j + n; the
  output block written back at k = 3 holds that accumulator plus the padded bias of gene 512 j + n. The forty blocks tile
  the 1024 × 20480 result array, and the closing host slice keeps its first 20000 columns.
-/
import proofs.«182253_j45011257262638_1_alg».proof.Proof.Gen.KernelIdeal.Frame
import proofs.«182253_j45011257262638_1_alg».proof.Proof.KerTerms
import proofs.«182253_j45011257262638_1_alg».proof.Proof.KerHost
import proofs.«182253_j45011257262638_1_alg».proof.Proof.KerPieces
import proofs.«182253_j45011257262638_1_alg».proof.Proof.KerPayload
import proofs.«182253_j45011257262638_1_alg».proof.Proof.Spec
import proofs.«182253_j45011257262638_1_alg».proof.Proof.SpecOut
import Idealize.ShloMosaic.Lib.Pipeline.Value
import Idealize.ShloMosaic.Lib.StableHlo.Run
import Idealize.ShloMosaic.Lib.ValueIdx

noncomputable section

namespace Cert.KernelIdeal.KValue

open Cert.KernelIdeal Cert.KernelIdeal.Gen Idealize.ShloMosaic Idealize.ShloMosaic.TcCoe Idealize.ShloMosaic.ValueIdx Idealize.SL.Sem
open Idealize.ShloMosaic.Pipeline (Dat)
open scoped BigOperators

variable (m : (ℓ : Loc nD τ sig) → Buf (Elt Ideal) ℓ) (ρ : Dev nD → PrngReg)

/-- The argument arrays and the two arrays the host chain builds from them. -/
abbrev X (c : Dev nD) : S1024x512.Idx → EReal := m ((c.tc : Thread nD τ).loc main_arg0)
abbrev W1 (c : Dev nD) : S4096.Idx → EReal := m ((c.tc : Thread nD τ).loc main_arg1)
abbrev B1 (c : Dev nD) : S4096.Idx → EReal := m ((c.tc : Thread nD τ).loc main_arg2)
abbrev WD (c : Dev nD) : S20480x4096.Idx → EReal := Terms.wd (F := Ideal) (m ((c.tc : Thread nD τ).loc main_arg5)) (m ((c.tc : Thread nD τ).loc main_arg3))
abbrev BP (c : Dev nD) : S20480.Idx → EReal := Terms.b2pad (F := Ideal) (m ((c.tc : Thread nD τ).loc main_arg4))

/-- Row r of the padded dense weight matrix. -/
def rowW (c : Dev nD) (r : Fin 20480) : Fin 4096 → EReal := fun h => WD m c (ix2 r h)

/-- The gene that position n of point t's gene tile stands for: 512 · (t / 4) + n. -/
def grow (t : Nat) (n : Fin 512) : Fin 20480 := ⟨((t / 4) % 40) * 512 + n.val, by omega⟩

/-- A tile number matters only modulo 4. -/
theorem hnode_congr {k k' : Nat} (h : k % 4 = k' % 4) (q : Fin 1024) : Cert.Spec.hnode k q = Cert.Spec.hnode k' q := by
  unfold Cert.Spec.hnode
  exact Fin.ext (by show (k % 4) * 1024 + q.val = (k' % 4) * 1024 + q.val; rw [h])

theorem tileAt_congr (x : S1024x512.Idx → EReal) (w1 b1 : S4096.Idx → EReal) (W : Fin 4096 → EReal) (b : Fin 1024) {k k' : Nat}
    (h : k % 4 = k' % 4) : Cert.Spec.tileAt x w1 b1 W b k = Cert.Spec.tileAt x w1 b1 W b k' := by
  unfold Cert.Spec.tileAt
  exact Finset.sum_congr rfl fun q _ => by rw [hnode_congr h q]

/-- The sum the matmul step adds at point t, in the input blocks, is tile t's partial product in the arrays. -/
theorem tile_eq (c : Dev nD) (t : Fin cfg0.N) (b : Fin 1024) (nn : Fin 512) :
    (∑ q : Fin 1024, Cert.Spec.act (Host.xb m c t (ix2 b (⟨q.val / 8, by omega⟩ : Fin 128)) * Host.w1b m c t (ix1 q) + Host.b1b m c t (ix1 q)) * Host.wdb m c t (ix2 nn q))
      = Cert.Spec.tileAt (X m c) (W1 m c) (B1 m c) (rowW m c (grow t.val nn)) b t.val := by
  unfold Cert.Spec.tileAt
  refine Finset.sum_congr rfl fun q _ => ?_
  rw [Host.xb_apply, Host.w1b_apply, Host.b1b_apply, Host.wdb_apply]
  unfold Cert.Spec.hidAt rowW
  have eA : (⟨(t.val % 4) * 128 + (⟨q.val / 8, by omega⟩ : Fin 128).val, by omega⟩ : Fin 512) = ⟨(Cert.Spec.hnode t.val q).val / 8, by omega⟩ :=
    Fin.ext (by show (t.val % 4) * 128 + q.val / 8 = ((t.val % 4) * 1024 + q.val) / 8; omega)
  have eB : (⟨(t.val % 4) * 1024 + q.val, by omega⟩ : Fin 4096) = Cert.Spec.hnode t.val q := rfl
  have eC : (⟨((t.val / 4) % 40) * 512 + nn.val, by omega⟩ : Fin 20480) = grow t.val nn := rfl
  rw [eA, eB, eC]

/-- At a first hidden tile the accumulator is zero plus the tile's partial product. -/
theorem scratch_A (c : Dev nD) (t : Fin cfg0.N) (h0 : t.val % 4 = 0) (h1 : ¬t.val % 4 = 3) (b : Fin 1024) (nn : Fin 512) :
    (outsAt0 m c t.val t.isLt).2 (ix2 b nn)
      = 0 + Cert.Spec.tileAt (X m c) (W1 m c) (B1 m c) (rowW m c (grow t.val nn)) b t.val := by
  rw [outsAt0_A m c t h0 h1]
  dsimp only
  refine (congrFun (Pieces.sout_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (Host.xb m c t) (Host.w1b m c t) (Host.b1b m c t) (Host.wdb m c t) (Host.b2b m c t)) (ix2 b nn)).trans ?_
  refine (Payload.pay2_apply (Host.xb m c t) (Host.w1b m c t) (Host.b1b m c t) (Host.wdb m c t) (k0_pay1 (F := Ideal)) b nn).trans ?_
  rw [Payload.pay1_apply]
  exact congrArg (0 + ·) (tile_eq m c t b nn)

/-- At a later hidden tile the accumulator is what the point before left plus the tile's partial product. -/
theorem scratch_BC (c : Dev nD) (t : Fin cfg0.N) (h0 : ¬t.val % 4 = 0) (b : Fin 1024) (nn : Fin 512) :
    (outsAt0 m c t.val t.isLt).2 (ix2 b nn)
      = (outsAt0 m c (t.val - 1) (Nat.lt_of_le_of_lt (Nat.sub_le _ _) t.isLt)).2 (ix2 b nn)
        + Cert.Spec.tileAt (X m c) (W1 m c) (B1 m c) (rowW m c (grow t.val nn)) b t.val := by
  by_cases h1 : t.val % 4 = 3
  · rw [outsAt0_C m c t h0 h1]
    dsimp only
    refine (congrFun (Pieces.sout_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (Host.xb m c t) (Host.w1b m c t) (Host.b1b m c t) (Host.wdb m c t) (Host.b2b m c t) (outsAt0 m c (t.val - 1) (Nat.lt_of_le_of_lt (Nat.sub_le _ _) t.isLt)).2) (ix2 b nn)).trans ?_
    refine (Payload.pay2_apply (Host.xb m c t) (Host.w1b m c t) (Host.b1b m c t) (Host.wdb m c t) _ b nn).trans ?_
    exact congrArg (_ + ·) (tile_eq m c t b nn)
  · rw [outsAt0_B m c t h0 h1]
    dsimp only
    refine (congrFun (Pieces.sout_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (Host.xb m c t) (Host.w1b m c t) (Host.b1b m c t) (Host.wdb m c t) (Host.b2b m c t) (outsAt0 m c (t.val - 1) (Nat.lt_of_le_of_lt (Nat.sub_le _ _) t.isLt)).2) (ix2 b nn)).trans ?_
    refine (Payload.pay2_apply (Host.xb m c t) (Host.w1b m c t) (Host.b1b m c t) (Host.wdb m c t) _ b nn).trans ?_
    exact congrArg (_ + ·) (tile_eq m c t b nn)

/-- THE ACCUMULATOR after point n: the partial products of hidden tiles 0 … n % 4 of gene tile n / 4, by induction on the point. -/
theorem scratch_eq (c : Dev nD) : ∀ (n : Nat) (h : n < cfg0.N) (b : Fin 1024) (nn : Fin 512),
    (outsAt0 m c n h).2 (ix2 b nn) = Cert.Spec.accAt (X m c) (W1 m c) (B1 m c) (rowW m c (grow n nn)) b (n % 4)
  | 0, h, b, nn => scratch_A m c ⟨0, h⟩ rfl (by show ¬(0 % 4 = 3); decide) b nn
  | n + 1, h, b, nn => by
    by_cases h0 : (n + 1) % 4 = 0
    · have h1 : ¬(n + 1) % 4 = 3 := by omega
      rw [h0]
      exact (scratch_A m c ⟨n + 1, h⟩ h0 h1 b nn).trans
        (congrArg (0 + ·) (tileAt_congr (X m c) (W1 m c) (B1 m c) _ b (by show (n + 1) % 4 = 0 % 4; omega)))
    · have hs := scratch_BC m c ⟨n + 1, h⟩ h0 b nn
      have ih := scratch_eq c n (Nat.lt_of_succ_lt h) b nn
      have e : (n + 1) % 4 = n % 4 + 1 := by omega
      have eg : grow n nn = grow (n + 1) nn := Fin.ext (by show ((n / 4) % 40) * 512 + nn.val = (((n + 1) / 4) % 40) * 512 + nn.val; omega)
      rw [e]
      show _ = Cert.Spec.accAt (X m c) (W1 m c) (B1 m c) (rowW m c (grow (n + 1) nn)) b (n % 4)
          + Cert.Spec.tileAt (X m c) (W1 m c) (B1 m c) (rowW m c (grow (n + 1) nn)) b (n % 4 + 1)
      rw [← eg]
      refine hs.trans ?_
      rw [← eg]
      show (outsAt0 m c n _).2 (ix2 b nn) + _ = _
      rw [ih]
      exact congrArg (_ + ·) (tileAt_congr (X m c) (W1 m c) (B1 m c) _ b (by show (n + 1) % 4 = (n % 4 + 1) % 4; omega))

/-- At a last hidden tile the output block is the accumulator plus the padded bias of the block's genes. -/
theorem out_C (c : Dev nD) (t : Fin cfg0.N) (h0 : ¬t.val % 4 = 0) (h1 : t.val % 4 = 3) (b : Fin 1024) (nn : Fin 512) :
    (outsAt0 m c t.val t.isLt).1 (ix2 b nn) = (outsAt0 m c t.val t.isLt).2 (ix2 b nn) + BP m c (ix1 (grow t.val nn)) := by
  have hs := congrFun (Pieces.sout_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (Host.xb m c t) (Host.w1b m c t) (Host.b1b m c t) (Host.wdb m c t) (Host.b2b m c t) (outsAt0 m c (t.val - 1) (Nat.lt_of_le_of_lt (Nat.sub_le _ _) t.isLt)).2) (ix2 b nn)
  have ho := congrFun (Pieces.out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (Host.xb m c t) (Host.w1b m c t) (Host.b1b m c t) (Host.wdb m c t) (Host.b2b m c t) (outsAt0 m c (t.val - 1) (Nat.lt_of_le_of_lt (Nat.sub_le _ _) t.isLt)).2) (ix2 b nn)
  rw [outsAt0_C m c t h0 h1]
  dsimp only
  refine ho.trans ?_
  refine (Payload.pay3_apply _ (Host.b2b m c t) b nn).trans ?_
  rw [Host.b2b_apply]
  refine Eq.trans ?_ (congrArg (fun z => z + BP m c (ix1 (grow t.val nn))) hs.symm)
  rfl

/-! ## From the blocks to the result array -/

/-- The padded result array as one function of the arrays. -/
def Gk (c : Dev nD) : S1024x20480.Idx → EReal := fun i =>
  Cert.Spec.outK (X m c) (W1 m c) (B1 m c) (WD m c) (BP m c) ⟨(i 0).val, idx2_lt0 i⟩ ⟨(i 1).val, idx2_lt1 i⟩

/-- The output window's block index at point t: row block 0, column block t / 4. -/
theorem idx5 : ∀ t : Fin cfg0.N, win0_5.index t (0 : Fin 2) = 0 ∧ win0_5.index t (1 : Fin 2) = t.val / 4 :=
  (by decide +kernel : ∀ t : Fin grid0.N, _)

/-- What a last-hidden-tile point writes back is its block of the result function. -/
theorem flushed_eq (c : Dev nD) (t : Fin cfg0.N) (hf : (cfg0.win 5).flush t = true) :
    (dats m 0 c).flushed 5 t = ((cfg0.win 5).blk t).view.read (Elt Ideal) (Gk m c) := by
  have h3 : t.val % 4 = 3 := (flush0_5 t).mp hf
  have h0 : ¬t.val % 4 = 0 := by omega
  have hN : t.val < 160 := lt_of_lt_of_eq t.isLt N_0
  obtain ⟨e0, e1⟩ := idx5 t
  show (cfg0.win 5).cut (grid0.coords t) ((dats m 0 c).after 5 t) = _
  rw [after0_5]
  funext j
  have hb : (j 0).val < 1024 := (j 0).isLt
  have hn : (j 1).val < 512 := (j 1).isLt
  have ej : (j : S1024x512.Idx) = ix2 (⟨(j 0).val, hb⟩ : Fin 1024) (⟨(j 1).val, hn⟩ : Fin 512) := by
    funext a
    match a with
    | ⟨0, _⟩ => rfl
    | ⟨1, _⟩ => rfl
  show (outsAt0 m c t.val t.isLt).1 j = Gk m c (((cfg0.win 5).blk t).view.emb j)
  refine (congrArg (outsAt0 m c t.val t.isLt).1 ej).trans ?_
  rw [out_C m c t h0 h3, scratch_eq m c t.val t.isLt, h3]
  unfold Gk Cert.Spec.outK
  have r0 : (⟨((((cfg0.win 5).blk t).view.emb j) 0).val, idx2_lt0 _⟩ : Fin 1024) = ⟨(j 0).val, hb⟩ :=
    Fin.ext (by show win0_5.index t (0 : Fin 2) * 1024 + 1 * (j 0).val = (j 0).val; rw [e0]; omega)
  have r1 : (⟨((((cfg0.win 5).blk t).view.emb j) 1).val, idx2_lt1 _⟩ : Fin 20480) = grow t.val ⟨(j 1).val, hn⟩ :=
    Fin.ext (by show win0_5.index t (1 : Fin 2) * 512 + 1 * (j 1).val = ((t.val / 4) % 40) * 512 + (j 1).val; rw [e1]; omega)
  rw [r0, r1]
  rfl

/-- An index of the result array is in point t's block iff each coordinate is in the block's range on its axis. -/
theorem mem_blk5 (t : Fin cfg0.N) (i : S1024x20480.Idx) :
    i ∈ ((cfg0.win 5).blk t).view.set ↔ ∀ a : Fin 2, win0_5.index t a * S1024x512.size a ≤ (i a).val ∧ (i a).val < win0_5.index t a * S1024x512.size a + S1024x512.size a := by
  show i ∈ ((View.whole main_v31).slice (win0_5.rect t)).set ↔ _
  rw [View.set_slice_whole, Rect.mem_set_unit]
  exact Iff.rfl

/-- THE RESULT ARRAY after the run: the forty blocks written at the last hidden tiles tile it, so it is the result function. -/
theorem final5 (c : Dev nD) : (dats m 0 c).arrAt 5 cfg0.N = Gk m c :=
  (dats m 0 c).arrAt_eq_of_cover 5 (Gk m c) (flushed_eq m c) fun i => by
    have hi0 : (i 0).val < 1024 := (i 0).isLt
    have hi1 : (i 1).val < 20480 := (i 1).isLt
    have hlt : 4 * ((i 1).val / 512) + 3 < cfg0.N := by rw [show cfg0.N = 160 from N_0]; omega
    obtain ⟨e0, e1⟩ := idx5 ⟨4 * ((i 1).val / 512) + 3, hlt⟩
    refine ⟨⟨4 * ((i 1).val / 512) + 3, hlt⟩, (flush0_5 _).mpr (by show (4 * ((i 1).val / 512) + 3) % 4 = 3; omega), ?_⟩
    rw [mem_blk5]
    intro a
    match a with
    | ⟨0, _⟩ =>
      show win0_5.index ⟨4 * ((i 1).val / 512) + 3, hlt⟩ (0 : Fin 2) * 1024 ≤ (i 0).val ∧ (i 0).val < win0_5.index ⟨4 * ((i 1).val / 512) + 3, hlt⟩ (0 : Fin 2) * 1024 + 1024
      rw [e0]; omega
    | ⟨1, _⟩ =>
      show win0_5.index ⟨4 * ((i 1).val / 512) + 3, hlt⟩ (1 : Fin 2) * 512 ≤ (i 1).val ∧ (i 1).val < win0_5.index ⟨4 * ((i 1).val / 512) + 3, hlt⟩ (1 : Fin 2) * 512 + 512
      rw [e1]
      show (4 * ((i 1).val / 512) + 3) / 4 * 512 ≤ (i 1).val ∧ (i 1).val < (4 * ((i 1).val / 512) + 3) / 4 * 512 + 512
      omega

/-! ## The closing slice and the run -/

/-- The host slice after the region keeps the first 20000 columns of the result array. -/
theorem tail_eq (c : Dev nD) :
    Pipeline.afterTail₀ cfgs (dats m) 0 (V0 m) [hostOps1] c main_v32
      = extractStridedSlice S1024x20000 ![0, 0] (Gk m c) Facts₀.slices_S1024x20480_S1024x20000_0_0 := by
  unfold Pipeline.afterTail₀
  show StableHlo.after hostOps1 _ (Proc.devRef .tc main_v32) = _
  after_results
  exact congrArg (fun A => extractStridedSlice S1024x20000 ![0, 0] A Facts₀.slices_S1024x20480_S1024x20000_0_0)
    ((Pipeline.withArrays_arr spec0 winFacts0.arr_inj c (V0 m c) (fun w => (dats m 0 c).arrAt w cfg0.N) 5).trans (final5 m c))

/-- THE RUN, READ: the result buffer ends at the first 20000 columns of the result function, the arguments unchanged. -/
theorem run : θ_run defs (onTc (τ := τ) (main (F := Ideal))) ⟨m, fun _ => 0, ρ⟩ fun r => ∀ c : Dev nD,
      r.2.mem ((c.tc : Thread nD τ).loc main_v32) = extractStridedSlice S1024x20000 ![0, 0] (Gk m c) Facts₀.slices_S1024x20480_S1024x20000_0_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v32 (Pipeline.mem_restRefs_of main_v32 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.KValue

end
-- ==== Proof.RefTerms.lean ====
/-
  The reference's host chain as functions of the argument arrays: the hidden layer (each feature repeated eight
  times along the row, scaled and shifted per hidden node, passed through the leaky rectifier), the scatter's
  row and column words, the dense weight matrix it accumulates, and the result: hidden · denseᵀ + bias.
-/
import proofs.«182253_j45011257262638_1_alg».proof.Proof.Gen.ReferenceIdeal

noncomputable section

namespace Cert.ReferenceIdeal.Terms

open Cert.ReferenceIdeal Idealize.ShloMosaic
open Cert.ReferenceIdeal.Facts₀

variable {F : FTy → Type} [FloatOps F]

/-- The hidden layer before the rectifier: feature (b, h / 8) times w1 h plus b1 h. -/
def pre (x : FVec F S1024x512 .f32) (w1 b1 : FVec F S4096 .f32) : FVec F S1024x4096 .f32 :=
  addf
    (mulf
      (shapeCast S1024x4096 (broadcastInDim S1024x512x8 ![0, 1] bcast_S1024x512_S1024x512x8_0_1 x) shapeCasts_S1024x512x8_S1024x4096)
      (broadcastInDim S1024x4096 ![0, 1] bcast_S1x4096_S1024x4096_0_1 (broadcastInDim S1x4096 ![1] bcast_S4096_S1x4096_1 w1)))
    (broadcastInDim S1024x4096 ![0, 1] bcast_S1x4096_S1024x4096_0_1 (broadcastInDim S1x4096 ![1] bcast_S4096_S1x4096_1 b1))

/-- The leaky rectifier: p where p ≥ 0, else the slope times p. -/
def leaky (p : FVec F S1024x4096 .f32) : FVec F S1024x4096 .f32 :=
  select (cmpf .oge p (broadcastInDim S1024x4096 ![] bcast_S_S1024x4096 (constant S_ .f32 0x00000000#32)))
    p
    (mulf (broadcastInDim S1024x4096 ![] bcast_S_S1024x4096 (id (constant S_ .f32 0x3C23D70A#32))) p)

/-- The hidden layer. -/
def hid (x : FVec F S1024x512 .f32) (w1 b1 : FVec F S4096 .f32) : FVec F S1024x4096 .f32 := leaky (pre x w1 b1)

/-- The column word of edge (g, 8 k + n): 8 · gene_tf (g, k) + n, in 32-bit arithmetic. -/
def cols (gt : IVec S20000x16 32) : IVec S20000x128 32 :=
  shapeCast S20000x128
    (addi
      (broadcastInDim S20000x16x8 ![0, 1, 2] bcast_S20000x16x1_S20000x16x8_0_1_2
        (muli (broadcastInDim S20000x16x1 ![0, 1] bcast_S20000x16_S20000x16x1_0_1 gt)
          (broadcastInDim S20000x16x1 ![] bcast_S_S20000x16x1 (constantI S_ 32 8#32))))
      (broadcastInDim S20000x16x8 ![0, 1, 2] bcast_S1x1x8_S20000x16x8_0_1_2
        (broadcastInDim S1x1x8 ![2] bcast_S8_S1x1x8_2 (iotaInDim S8 32 0))))
    shapeCasts_S20000x16x8_S20000x128

/-- The row word of edge (g, j): g. -/
def rows : IVec S20000x128 32 :=
  broadcastInDim S20000x128 ![0, 1] bcast_S20000x1_S20000x128_0_1
    (broadcastInDim S20000x1 ![0] bcast_S20000_S20000x1_0 (iotaInDim S20000 32 0))

/-- A negative index word moved up by the axis length n. -/
def norm (n : BitVec 32) (x : IVec S20000x128 32) : IVec S20000x128 32 :=
  select (cmpi .slt x (broadcastInDim S20000x128 ![] bcast_S_S20000x128 (constantI S_ 32 0#32)))
    (addi x (broadcastInDim S20000x128 ![] bcast_S_S20000x128 (constantI S_ 32 n)))
    x

/-- The scatter's index pairs (row, column). -/
def sidx (gt : IVec S20000x16 32) : IVec S20000x128x2 32 :=
  concatenate S20000x128x2 2
    [⟨S20000x128x1, broadcastInDim S20000x128x1 ![0, 1] bcast_S20000x128_S20000x128x1_0_1 (norm 20000#32 rows)⟩,
     ⟨S20000x128x1, broadcastInDim S20000x128x1 ![0, 1] bcast_S20000x128_S20000x128x1_0_1 (norm 4096#32 (cols gt))⟩]
    concatenates_S20000x128x1_S20000x128x1_S20000x128x2_d2

/-- The dense weight matrix: zero plus every edge weight added at its (row, column). -/
def wd (gt : IVec S20000x16 32) (w2 : FVec F S20000x16x8 .f32) : FVec F S20000x4096 .f32 :=
  Host.scatterAdd scatter_S20000x4096_S20000x128x2_S20000x128_n_01_01_2
    (broadcastInDim S20000x4096 ![] bcast_S_S20000x4096 (constant S_ .f32 0x00000000#32))
    (sidx gt)
    (shapeCast S20000x128 w2 shapeCasts_S20000x16x8_S20000x128)

/-- The result: hidden · denseᵀ + bias. -/
def out (x : FVec F S1024x512 .f32) (w1 b1 : FVec F S4096 .f32) (w2 : FVec F S20000x16x8 .f32) (b2 : FVec F S20000 .f32)
    (gt : IVec S20000x16 32) : FVec F S1024x20000 .f32 :=
  addf
    (Host.dotGeneral dot_S1024x4096_S4096x20000_S1024x20000_1_0_0_1_n_n none (hid x w1 b1)
      (transpose S4096x20000 [1, 0] (wd gt w2) transposes_S20000x4096_S4096x20000_1_0))
    (broadcastInDim S1024x20000 ![0, 1] bcast_S1x20000_S1024x20000_0_1 (broadcastInDim S1x20000 ![1] bcast_S20000_S1x20000_1 b2))

end Cert.ReferenceIdeal.Terms

end
-- ==== Proof.RefRun.lean ====
/-
  The reference program's run: its @main is a straight line of host operations (the outlined rectifier's
  operations listed at its call), so every weakly fair execution terminates with the result buffer at the host chain's
  term of the argument arrays and the arguments unchanged.
-/
import proofs.«182253_j45011257262638_1_alg».proof.Proof.RefTerms
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀

variable {F : FTy → Type} [FloatOps F]

/-- @main's fifty-five operations, in order: the nine that build the hidden layer's pre-activation and the slope
    constant; the rectifier's seven, written where it is called, over that call's own buffers (zero, its broadcast, the
    comparison, the slope converted and broadcast, the scaled branch, the selection); then the index words, the
    scatter, the transpose, the contraction and the bias. -/
abbrev ops : List (HloOp τ sig (Elt F)) :=
  [ unary main_arg0 main_v0 (broadcastInDim S1024x512x8 ![0, 1] bcast_S1024x512_S1024x512x8_0_1),
    reshape main_v0 main_v1 rfl shapeCasts_S1024x512x8_S1024x4096,
    unary main_arg1 main_v2 (broadcastInDim S1x4096 ![1] bcast_S4096_S1x4096_1),
    unary main_v2 main_v3 (broadcastInDim S1024x4096 ![0, 1] bcast_S1x4096_S1024x4096_0_1),
    binary main_v1 main_v3 main_v4 mulf,
    unary main_arg2 main_v5 (broadcastInDim S1x4096 ![1] bcast_S4096_S1x4096_1),
    unary main_v5 main_v6 (broadcastInDim S1024x4096 ![0, 1] bcast_S1x4096_S1024x4096_0_1),
    binary main_v4 main_v6 main_v7 addf,
    nullary main_cst (constant S_ .f32 0x3C23D70A#32),
    TRef.nullary main_call0.cst (constant S_ .f32 0x00000000#32),
    TRef.unary main_call0.cst main_call0.v0 (broadcastInDim S1024x4096 ![] bcast_S_S1024x4096),
    TRef.binary (.of main_v7) main_call0.v0 main_call0.v1 (cmpf .oge),
    TRef.unary (.of main_cst) main_call0.v2 id,
    TRef.unary main_call0.v2 main_call0.v3 (broadcastInDim S1024x4096 ![] bcast_S_S1024x4096),
    TRef.binary main_call0.v3 (.of main_v7) main_call0.v4 mulf,
    TRef.ternary main_call0.v1 (.of main_v7) main_call0.v4 main_call0.call0.v0 select,
    unary main_arg5 main_v9 (broadcastInDim S20000x16x1 ![0, 1] bcast_S20000x16_S20000x16x1_0_1),
    nullary main_c (constantI S_ 32 8#32),
    unary main_c main_v10 (broadcastInDim S20000x16x1 ![] bcast_S_S20000x16x1),
    binary main_v9 main_v10 main_v11 muli,
    nullary main_v12 (iotaInDim S8 32 0),
    unary main_v12 main_v13 (broadcastInDim S1x1x8 ![2] bcast_S8_S1x1x8_2),
    unary main_v11 main_v14 (broadcastInDim S20000x16x8 ![0, 1, 2] bcast_S20000x16x1_S20000x16x8_0_1_2),
    unary main_v13 main_v15 (broadcastInDim S20000x16x8 ![0, 1, 2] bcast_S1x1x8_S20000x16x8_0_1_2),
    binary main_v14 main_v15 main_v16 addi,
    reshape main_v16 main_v17 rfl shapeCasts_S20000x16x8_S20000x128,
    nullary main_v18 (iotaInDim S20000 32 0),
    unary main_v18 main_v19 (broadcastInDim S20000x1 ![0] bcast_S20000_S20000x1_0),
    unary main_v19 main_v20 (broadcastInDim S20000x128 ![0, 1] bcast_S20000x1_S20000x128_0_1),
    nullary main_cst_0 (constant S_ .f32 0x00000000#32),
    unary main_cst_0 main_v21 (broadcastInDim S20000x4096 ![] bcast_S_S20000x4096),
    reshape main_arg3 main_v22 rfl shapeCasts_S20000x16x8_S20000x128,
    nullary main_c_1 (constantI S_ 32 0#32),
    unary main_c_1 main_v23 (broadcastInDim S20000x128 ![] bcast_S_S20000x128),
    binary main_v20 main_v23 main_v24 (cmpi .slt),
    nullary main_c_2 (constantI S_ 32 20000#32),
    unary main_c_2 main_v25 (broadcastInDim S20000x128 ![] bcast_S_S20000x128),
    binary main_v20 main_v25 main_v26 addi,
    ternary main_v24 main_v26 main_v20 main_v27 select,
    nullary main_c_3 (constantI S_ 32 0#32),
    unary main_c_3 main_v28 (broadcastInDim S20000x128 ![] bcast_S_S20000x128),
    binary main_v17 main_v28 main_v29 (cmpi .slt),
    nullary main_c_4 (constantI S_ 32 4096#32),
    unary main_c_4 main_v30 (broadcastInDim S20000x128 ![] bcast_S_S20000x128),
    binary main_v17 main_v30 main_v31 addi,
    ternary main_v29 main_v31 main_v17 main_v32 select,
    unary main_v27 main_v33 (broadcastInDim S20000x128x1 ![0, 1] bcast_S20000x128_S20000x128x1_0_1),
    unary main_v32 main_v34 (broadcastInDim S20000x128x1 ![0, 1] bcast_S20000x128_S20000x128x1_0_1),
    binary main_v33 main_v34 main_v35 (fun a b => concatenate S20000x128x2 2 [⟨S20000x128x1, a⟩, ⟨S20000x128x1, b⟩] concatenates_S20000x128x1_S20000x128x1_S20000x128x2_d2),
    ternary main_v21 main_v35 main_v22 main_v36 (fun x i u => Host.scatterAdd scatter_S20000x4096_S20000x128x2_S20000x128_n_01_01_2 x i u),
    unary main_v36 main_v37 (transpose S4096x20000 [1, 0] · transposes_S20000x4096_S4096x20000_1_0),
    binary main_v8 main_v37 main_v38 (fun l r => Host.dotGeneral dot_S1024x4096_S4096x20000_S1024x20000_1_0_0_1_n_n none l r),
    unary main_arg4 main_v39 (broadcastInDim S1x20000 ![1] bcast_S20000_S1x20000_1),
    unary main_v39 main_v40 (broadcastInDim S1024x20000 ![0, 1] bcast_S1x20000_S1024x20000_0_1),
    binary main_v38 main_v40 main_v41 addf ]

-- fifty-five binds re-associated: the rewrite under the chain recurses once per statement
set_option maxRecDepth 2048 in
/-- @main is that straight line: the two outlined functions unfolded at their calls and the call records at their
    fields, both sides are one chain of host steps once sequencing is re-associated. -/
theorem main_eq (c : Dev nD) : main (F := F) c = seq ops := by
  simp only [main, fn_leaky_relu.body, fn_where.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., unary_bufs_sub .., unary_bufs_sub .., binary_bufs_sub .., unary_bufs_sub ..,
    unary_bufs_sub .., binary_bufs_sub .., nullary_bufs_sub ..,
    nullary_bufs_sub .., unary_bufs_sub .., binary_bufs_sub .., unary_bufs_sub .., unary_bufs_sub .., binary_bufs_sub ..,
    ternary_bufs_sub ..,
    unary_bufs_sub .., nullary_bufs_sub .., unary_bufs_sub .., binary_bufs_sub .., nullary_bufs_sub .., unary_bufs_sub ..,
    unary_bufs_sub .., unary_bufs_sub .., binary_bufs_sub .., reshape_bufs_sub .., nullary_bufs_sub .., unary_bufs_sub ..,
    unary_bufs_sub .., nullary_bufs_sub .., unary_bufs_sub .., reshape_bufs_sub .., nullary_bufs_sub .., unary_bufs_sub ..,
    binary_bufs_sub .., nullary_bufs_sub .., unary_bufs_sub .., binary_bufs_sub .., ternary_bufs_sub .., nullary_bufs_sub ..,
    unary_bufs_sub .., binary_bufs_sub .., nullary_bufs_sub .., unary_bufs_sub .., binary_bufs_sub .., ternary_bufs_sub ..,
    unary_bufs_sub .., unary_bufs_sub .., binary_bufs_sub .., ternary_bufs_sub .., unary_bufs_sub .., binary_bufs_sub ..,
    unary_bufs_sub .., unary_bufs_sub .., binary_bufs_sub ..⟩

/-! The argument buffers: no operation writes one, so each keeps its launch contents. -/

theorem arg0_eq (V : Valuation τ sig (Elt F)) : after ops V (main_arg0 : DevRef τ sig) = V (main_arg0 : DevRef τ sig) := by
  after_results_simp

theorem arg1_eq (V : Valuation τ sig (Elt F)) : after ops V (main_arg1 : DevRef τ sig) = V (main_arg1 : DevRef τ sig) := by
  after_results_simp

theorem arg2_eq (V : Valuation τ sig (Elt F)) : after ops V (main_arg2 : DevRef τ sig) = V (main_arg2 : DevRef τ sig) := by
  after_results_simp

theorem arg3_eq (V : Valuation τ sig (Elt F)) : after ops V (main_arg3 : DevRef τ sig) = V (main_arg3 : DevRef τ sig) := by
  after_results_simp

theorem arg4_eq (V : Valuation τ sig (Elt F)) : after ops V (main_arg4 : DevRef τ sig) = V (main_arg4 : DevRef τ sig) := by
  after_results_simp

theorem arg5_eq (V : Valuation τ sig (Elt F)) : after ops V (main_arg5 : DevRef τ sig) = V (main_arg5 : DevRef τ sig) := by
  after_results_simp

set_option maxRecDepth 8192 in
set_option maxHeartbeats 1600000 in
/-- The fold at the result buffer is the host chain's term: each operation's result at its own buffer is its function's
    value, at any other buffer what was there. What is left after those rewrites differs from the term only at the three
    reshapes, whose result is written index by index (an eta-expansion of the reshaped array). -/
theorem out_eq (V : Valuation τ sig (Elt F)) :
    after ops V (main_v41 : DevRef τ sig)
      = Terms.out (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  simp only [Terms.out, Terms.hid, Terms.leaky, Terms.pre, Terms.wd, Terms.sidx, Terms.norm, Terms.rows, Terms.cols]
  after_results
  rfl

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v41) = Terms.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  exact (θ_run defs _ _).mono (fun _ h c => ⟨(h c main_v41).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _)⟩)
    (run_seq scopedRefs_eq scopedSems_eq defs main (fun _ => ops) main_eq (fun _ => ops_sub) m ρ)

end Cert.ReferenceIdeal.RefRun

end
-- ==== Proof.LibScatterSet.lean ====
/-
  A host scatter whose body returns the update (a "set"), read at an index. The scatter is the left fold, over the
  update's indices in row-major order, of "replace the element at the index this update lands on". When no two
  update indices land on one result index, the order does not matter: the result at an index some update lands on
  is that update, and the result at an index none lands on is the operand's element. General in the dimension
  numbers and the element type; nothing here mentions a program.
-/
import Idealize.ShloMosaic.PureOps

namespace Cert.LibScatterSet

open Idealize.ShloMosaic

variable {α : Type} {s si u : Shape} {w : Nat}

/-- A left fold of steps each of which either leaves the accumulator alone or replaces it at ONE index, read at an
    index `i` no step of the list replaces: the starting accumulator's element. `land m` is the index step `m`
    replaces, when it replaces one. -/
private theorem foldl_of_misses {ι β : Type} (land : ι → Option β) (g : (β → α) → ι → β → α)
    (hnone : ∀ r m, land m = none → g r m = r)
    (hne : ∀ r m i i', land m = some i → i' ≠ i → g r m i' = r i')
    (i : β) : ∀ (l : List ι) (r : β → α), (∀ m ∈ l, land m ≠ some i) → l.foldl g r i = r i := by
  intro l
  induction l with
  | nil => intro r _; rfl
  | cons m l ih =>
    intro r hl
    rw [List.foldl_cons, ih (g r m) fun m' hm' => hl m' (List.mem_cons_of_mem m hm')]
    have hm := hl m (List.mem_cons_self ..)
    cases hlm : land m with
    | none => rw [hnone r m hlm]
    | some i₀ =>
      refine hne r m i₀ i hlm fun h => hm ?_
      rw [hlm, h]

/-- The same fold read at an index `i` that step `n` of the list replaces by `v n`, when every step that replaces
    `i` writes the same element there: that element. (Induction from the list's END: the last step either writes
    `i`, with the common element, or leaves `i` to the steps before it, of which `n` is one.) -/
private theorem foldl_of_lands {ι β : Type} (land : ι → Option β) (v : ι → α) (g : (β → α) → ι → β → α)
    (hnone : ∀ r m, land m = none → g r m = r)
    (hne : ∀ r m i i', land m = some i → i' ≠ i → g r m i' = r i')
    (heq : ∀ r m i, land m = some i → g r m i = v m)
    (i : β) (n : ι) (hn : land n = some i) (hsame : ∀ m, land m = some i → v m = v n) :
    ∀ (l : List ι) (r : β → α), n ∈ l → l.foldl g r i = v n := by
  intro l
  induction l using List.reverseRecOn with
  | nil => intro r h; exact absurd h List.not_mem_nil
  | append_singleton l m ih =>
    intro r hmem
    rw [List.foldl_append, List.foldl_cons, List.foldl_nil]
    cases hlm : land m with
    | none =>
      rw [hnone _ m hlm]
      refine ih r ?_
      rcases List.mem_append.1 hmem with h | h
      · exact h
      · rw [List.mem_singleton] at h
        rw [h, hlm] at hn
        exact absurd hn (by simp)
    | some i₀ =>
      by_cases hi : i = i₀
      · subst hi
        rw [heq _ m i hlm]
        exact hsame m hlm
      · rw [hne _ m i₀ i hlm hi]
        refine ih r ?_
        rcases List.mem_append.1 hmem with h | h
        · exact h
        · rw [List.mem_singleton] at h
          rw [h, hlm] at hn
          exact absurd (Option.some.inj hn).symm hi

/-- Where update index `j` lands on `i`, and landing indices are pairwise distinct, the set-scatter holds the update's
    element `j` at `i`. -/
theorem scatter_set_of_lands (d : ScatterDims s si u) (x : s.Idx → α) (idx : IVec si w) (upd : u.Idx → α)
    (hinj : ∀ (j j' : u.Idx) (i : s.Idx), d.resultIdx? j idx = some i → d.resultIdx? j' idx = some i → j = j')
    (j : u.Idx) (i : s.Idx) (hj : d.resultIdx? j idx = some i) :
    Host.scatter d (fun _ b => b) x idx upd i = upd j := by
  unfold Host.scatter
  have hjn : d.resultIdx? (u.rowMajor.symm (u.rowMajor j)) idx = some i := by
    rw [Equiv.symm_apply_apply]; exact hj
  refine (foldl_of_lands (fun n => d.resultIdx? (u.rowMajor.symm n) idx) (fun n => upd (u.rowMajor.symm n)) _
    ?_ ?_ ?_ i (u.rowMajor j) hjn ?_ (List.finRange u.numel) x (List.mem_finRange _)).trans ?_
  · intro r m h
    simp only [h]
  · intro r m i₀ i' h hne
    simp only [h, if_neg hne]
  · intro r m i₀ h
    simp only [h, if_true]
  · intro m hm
    exact congrArg upd (hinj _ _ i hm hjn)
  · exact congrArg upd (Equiv.symm_apply_apply _ j)

/-- Where no update index lands on `i`, the set-scatter keeps the operand's element at `i`. -/
theorem scatter_set_of_misses (d : ScatterDims s si u) (x : s.Idx → α) (idx : IVec si w) (upd : u.Idx → α)
    (i : s.Idx) (hi : ∀ j : u.Idx, d.resultIdx? j idx ≠ some i) :
    Host.scatter d (fun _ b => b) x idx upd i = x i := by
  unfold Host.scatter
  refine foldl_of_misses (fun n => d.resultIdx? (u.rowMajor.symm n) idx) _ ?_ ?_ i (List.finRange u.numel) x
    fun m _ => hi _
  · intro r m h
    simp only [h]
  · intro r m i₀ i' h hne
    simp only [h, if_neg hne]

end Cert.LibScatterSet
-- ==== Proof.ScatterFacts.lean ====
/-
  Facts about host scatters and sums used by both sides, stated over the library alone.
  (1) Two accumulating scatters with the same dimension numbers and the same indices and updates, into operands of
      20480 and of 20000 rows, agree at every (row, column) with row < 20000: an update lands at such an entry of the
      one exactly when it lands there in the other, because the range test differs only above row 20000.
  (2) A set-scatter of one window of 20000 entries at start 0 into 20480 entries holds update g at entry g.
  (3) Moving negative words up by the axis length changes nothing when no word is negative.
  (4) A sum over 4096 hidden nodes is the sum of its four tiles of 1024, added left to right.
-/
import Idealize.ShloMosaic.PureOps
import Idealize.ShloMosaic.PureOps.Ideal
import Idealize.ShloMosaic.PureOps.Ideal.Laws
import Idealize.ShloMosaic.Lib.ValueIdx
import proofs.«182253_j45011257262638_1_alg».proof.Proof.LibScatterSet
import proofs.«182253_j45011257262638_1_alg».proof.Proof.Spec

noncomputable section

namespace Cert.ScatterFacts

open Idealize.ShloMosaic Idealize.ShloMosaic.ValueIdx
open scoped BigOperators

/-- An update index lands on result index i exactly when start plus window coordinate is i's coordinate on every axis:
    the range test of the definition holds because i's coordinates are in range. -/
private theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h
    split at h
    · rename_i hr
      intro a
      have h1 := congrFun (Option.some.inj h) a
      have h2 := congrArg Fin.val h1
      simp only at h2
      have h3 := hr a
      omega
    · exact absurd h (by simp)
  · intro h
    have hr : ∀ a, 0 ≤ d.start j idx a + d.window j a ∧ d.start j idx a + d.window j a < s.size a := by
      intro a
      have h1 := h a
      have h2 := (i a).isLt
      omega
    rw [dif_pos hr]
    congr 1
    funext a
    apply Fin.ext
    have h1 := h a
    simp only
    omega

/-- Where every scatter index word is zero, every window starts at zero. -/
private theorem start_of_zero {s si u : Shape} (d : ScatterDims s si u) {w : Nat} (j : u.Idx) (idx : IVec si w)
    (hidx : ∀ i, idx i = 0#w) (a : Fin s.rank) : d.start j idx a = 0 := by
  unfold ScatterDims.start
  split
  · rw [hidx, BitVec.toInt_zero]
  · rfl

theorem scatterAdd_rows
    (dK : ScatterDims ⟨2, ![20480, 4096]⟩ ⟨3, ![20000, 128, 2]⟩ ⟨2, ![20000, 128]⟩)
    (dR : ScatterDims ⟨2, ![20000, 4096]⟩ ⟨3, ![20000, 128, 2]⟩ ⟨2, ![20000, 128]⟩)
    (hK : dK.updateWindowDims = [] ∧ dK.insertedWindowDims = [0, 1] ∧ dK.scatterDimsToOperandDims = [0, 1] ∧ dK.indexVectorDim = 2)
    (hR : dR.updateWindowDims = [] ∧ dR.insertedWindowDims = [0, 1] ∧ dR.scatterDimsToOperandDims = [0, 1] ∧ dR.indexVectorDim = 2)
    (xK : (⟨2, ![20480, 4096]⟩ : Shape).Idx → EReal) (xR : (⟨2, ![20000, 4096]⟩ : Shape).Idx → EReal)
    (idx : IVec ⟨3, ![20000, 128, 2]⟩ 32) (upd : (⟨2, ![20000, 128]⟩ : Shape).Idx → EReal)
    (g : Fin 20000) (h : Fin 4096)
    (hx : xK (ix2 (⟨g.val, by omega⟩ : Fin 20480) h) = xR (ix2 g h)) :
    Ideal.hostScatterAdd dK xK idx upd (ix2 (⟨g.val, by omega⟩ : Fin 20480) h) = Ideal.hostScatterAdd dR xR idx upd (ix2 g h) := by
  obtain ⟨uwd, iwd, sdto, ivd, wf⟩ := dK
  obtain ⟨uwd', iwd', sdto', ivd', wf'⟩ := dR
  dsimp only at hK hR
  obtain ⟨rfl, rfl, rfl, rfl⟩ := hK
  obtain ⟨rfl, rfl, rfl, rfl⟩ := hR
  unfold Ideal.hostScatterAdd
  rw [hx]
  refine congrArg (fun t => xR (ix2 g h) + t) ?_
  refine Finset.sum_congr (Finset.filter_congr fun j _ => ?_) fun _ _ => rfl
  have e : ∀ P : Fin 2 → Prop, (∀ a, P a) ↔ P 0 ∧ P 1 := fun P => Fin.forall_fin_two
  refine (resultIdx?_eq_some_iff _ j idx _).trans (Iff.trans ?_ (resultIdx?_eq_some_iff _ j idx _).symm)
  refine (e _).trans (Iff.trans ?_ (e _).symm)
  exact Iff.rfl

theorem scatterSet_window {α : Type}
    (d : ScatterDims ⟨1, ![20480]⟩ ⟨1, ![1]⟩ ⟨1, ![20000]⟩)
    (hd : d.updateWindowDims = [0] ∧ d.insertedWindowDims = [] ∧ d.scatterDimsToOperandDims = [0] ∧ d.indexVectorDim = 0)
    (x : (⟨1, ![20480]⟩ : Shape).Idx → α) (idx : IVec ⟨1, ![1]⟩ 32) (hidx : ∀ i, idx i = 0#32)
    (upd : (⟨1, ![20000]⟩ : Shape).Idx → α) (g : Fin 20000) :
    Host.scatter d (fun _ b => b) x idx upd (ix1 (⟨g.val, by omega⟩ : Fin 20480)) = upd (ix1 g) := by
  obtain ⟨uwd, iwd, sdto, ivd, wf⟩ := d
  dsimp only at hd
  obtain ⟨rfl, rfl, rfl, rfl⟩ := hd
  -- every update index lands on the entry of its own number
  have hland : ∀ j : (⟨1, ![20000]⟩ : Shape).Idx,
      ScatterDims.resultIdx? (⟨[0], [], [0], 0, wf⟩ : ScatterDims ⟨1, ![20480]⟩ ⟨1, ![1]⟩ ⟨1, ![20000]⟩) j idx
        = some (ix1 (⟨(j 0).val, by have := (j 0).isLt; simp only [Matrix.cons_val_zero] at this; omega⟩ : Fin 20480)) := by
    intro j
    rw [resultIdx?_eq_some_iff]
    intro a
    rw [start_of_zero _ j idx hidx a, Fin.fin_one_eq_zero a, zero_add]
    rfl
  refine Cert.LibScatterSet.scatter_set_of_lands _ x idx upd ?_ (ix1 g) _ (hland (ix1 g))
  intro j j' i hj hj'
  rw [hland j] at hj
  rw [hland j'] at hj'
  have h1 := congrFun (Option.some.inj (hj.trans hj'.symm)) 0
  have h2 : (j 0).val = (j' 0).val := by
    have h3 := congrArg Fin.val h1
    exact h3
  funext a
  rw [Fin.fin_one_eq_zero a]
  exact Fin.ext h2

theorem norm_of_nonneg {s : Shape} (x z n : IVec s 32) (hz : ∀ i, z i = 0#32) (hx : ∀ i, 0 ≤ (x i).toInt) :
    select (cmpi .slt x z) (addi x n) x = x := by
  funext i
  rw [select_apply]
  have hc : cmpi .slt x z i = 0#1 := by
    show IntOp.cmpi .slt (x i) (z i) = 0#1
    rw [hz i]
    have hlt : (x i).slt 0#32 = false := by
      rw [BitVec.slt, BitVec.toInt_zero]
      exact decide_eq_false (not_lt.2 (hx i))
    show BitVec.ofBool ((x i).slt 0#32) = 0#1
    rw [hlt]
    rfl
  rw [hc, select_zero]

/-- Hidden node 1024 k + q is entry (k, q) of the product order on 4 × 1024. -/
private theorem hnode_eq (k : Fin 4) (q : Fin 1024) :
    (finProdFinEquiv (k, q) : Fin 4096) = Cert.Spec.hnode k.val q := by
  apply Fin.ext
  have hk := k.isLt
  simp only [finProdFinEquiv_apply_val, Cert.Spec.hnode]
  omega

/-- A sum over the 4096 hidden nodes, tile by tile. -/
private theorem sum_tiles (F : Fin 4096 → EReal) :
    ∑ h : Fin 4096, F h = ∑ k : Fin 4, ∑ q : Fin 1024, F (Cert.Spec.hnode k.val q) := by
  rw [← Fintype.sum_equiv (finProdFinEquiv : Fin 4 × Fin 1024 ≃ Fin 4096) (fun p => F (Cert.Spec.hnode p.1.val p.2)) F
    (fun p => by rw [← hnode_eq])]
  exact Fintype.sum_prod_type _

/-- The 4096 hidden nodes are the four tiles' nodes: the whole sum is the accumulator after tile 3. -/
theorem sum_eq_accAt (x : (⟨2, ![1024, 512]⟩ : Shape).Idx → EReal) (w1 b1 : (⟨1, ![4096]⟩ : Shape).Idx → EReal) (W : Fin 4096 → EReal) (b : Fin 1024) :
    Cert.Spec.accAt x w1 b1 W b 3 = ∑ h : Fin 4096, Cert.Spec.hidAt x w1 b1 b h * W h := by
  rw [sum_tiles (fun h => Cert.Spec.hidAt x w1 b1 b h * W h), Fin.sum_univ_four]
  simp only [Cert.Spec.accAt, Cert.Spec.tileAt, zero_add]
  rfl

end Cert.ScatterFacts

end
-- ==== Proof.RefRead.lean ====
/-
  The reference's host chain read at an index, on the extended reals: the hidden layer at (b, h) is the leaky
  rectifier of feature (b, h / 8) · w1 h + b1 h, and the result at (b, g) is the sum over the hidden nodes of
  hidden (b, h) · dense (g, h), plus bias g (the transpose and the contraction read through).
-/
import proofs.«182253_j45011257262638_1_alg».proof.Proof.RefTerms
import proofs.«182253_j45011257262638_1_alg».proof.Proof.Spec
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost
import Idealize.ShloMosaic.Lib.StackMember
import Idealize.ShloMosaic.PureOps.Ideal.Laws

noncomputable section

namespace Cert.ReferenceIdeal.RefRead

open Cert.ReferenceIdeal Idealize.ShloMosaic Idealize.ShloMosaic.ValueIdx
open scoped BigOperators

/-- A scalar constant broadcast over the hidden layer's shape reads the constant's value everywhere. -/
private theorem const_read (c : BitVec 32) (hb : S_.BroadcastsInDim S1024x4096 (![] : Fin 0 → Fin S1024x4096.rank))
    (j : S1024x4096.Idx) :
    broadcastInDim S1024x4096 ![] hb (constant (F := Ideal) S_ .f32 c) j = Ideal.ofBits .f32 c := by
  rw [broadcastInDim_scalar_apply]
  rfl

/-- A vector of length n, made a one-row matrix and repeated down m rows, reads at (r, t) its entry t. -/
private theorem row_read {m n : ℕ} (w : FVec Ideal ⟨1, ![n]⟩ .f32)
    (h1 : (⟨1, ![n]⟩ : Shape).BroadcastsInDim ⟨2, ![1, n]⟩ (![1] : Fin 1 → Fin 2))
    (h2 : (⟨2, ![1, n]⟩ : Shape).BroadcastsInDim ⟨2, ![m, n]⟩ (![0, 1] : Fin 2 → Fin 2))
    (r : Fin m) (t : Fin n) :
    broadcastInDim ⟨2, ![m, n]⟩ ![0, 1] h2 (broadcastInDim ⟨2, ![1, n]⟩ ![1] h1 w) (ix2 r t) = w (ix1 t) := by
  rw [broadcastInDim_oneRow_apply]
  refine broadcastInDim_apply ![1] h1 w (ix2 (0 : Fin 1) t) (ix1 t) ?_
  intro a
  match a with
  | ⟨0, _⟩ =>
    show t.val = if n = 1 then 0 else t.val
    split
    · have := t.isLt; omega
    · rfl

/-- Each feature repeated eight times along a new last axis, the last two axes then merged row-major: position
    (b, h) reads feature (b, h / 8), since h = 8 · (h / 8) + h % 8. -/
private theorem feat_read (x : FVec Ideal S1024x512 .f32)
    (h1 : S1024x512.BroadcastsInDim S1024x512x8 (![0, 1] : Fin 2 → Fin S1024x512x8.rank))
    (h2 : S1024x512x8.ShapeCasts S1024x4096)
    (b : Fin 1024) (h : Fin 4096) :
    shapeCast S1024x4096 (broadcastInDim S1024x512x8 ![0, 1] h1 x) h2 (ix2 b h)
      = x (ix2 b (⟨h.val / 8, by omega⟩ : Fin 512)) := by
  have e1 := shapeCast_apply (broadcastInDim S1024x512x8 ![0, 1] h1 x) h2 (ix2 b h)
    (ix3 b (⟨h.val / 8, by omega⟩ : Fin 512) (⟨h.val % 8, by omega⟩ : Fin 8)) (by
      rw [Shape.rowMajor_val_three, Shape.rowMajor_val_two]
      show (b.val * 512 + h.val / 8) * 8 + h.val % 8 = b.val * 4096 + h.val
      omega)
  rw [e1]
  refine broadcastInDim_apply ![0, 1] h1 x _ (ix2 b (⟨h.val / 8, by omega⟩ : Fin 512)) ?_
  intro a
  match a with
  | ⟨0, _⟩ =>
    show b.val = if (1024 : ℕ) = 1 then 0 else b.val
    rw [if_neg (by decide)]
  | ⟨1, _⟩ =>
    show h.val / 8 = if (512 : ℕ) = 1 then 0 else h.val / 8
    rw [if_neg (by decide)]

theorem hid_apply (x : FVec Ideal S1024x512 .f32) (w1 b1 : FVec Ideal S4096 .f32) (b : Fin 1024) (h : Fin 4096) :
    Terms.hid (F := Ideal) x w1 b1 (ix2 b h) = Cert.Spec.hidAt x w1 b1 b h := by
  unfold Terms.hid Terms.leaky Terms.pre Cert.Spec.hidAt Cert.Spec.act
  rw [select_apply, cmpf_apply, mulf_apply, addf_apply, mulf_apply, const_read, row_read, row_read, feat_read]
  show _ = _
  rw [show (id (constant (F := Ideal) S_ .f32 0x3C23D70A#32)) = constant (F := Ideal) S_ .f32 0x3C23D70A#32 from rfl, const_read]

/-- The reference's contraction has the dimension numbers of a plain matrix product: rows × contracted axis by
    contracted axis × columns. -/
private theorem dot_eq_plain :
    dot_S1024x4096_S4096x20000_S1024x20000_1_0_0_1_n_n = DotDims.plain 1024 4096 20000 := rfl

theorem out_apply (x : FVec Ideal S1024x512 .f32) (w1 b1 : FVec Ideal S4096 .f32) (w2 : FVec Ideal S20000x16x8 .f32) (b2 : FVec Ideal S20000 .f32)
    (gt : IVec S20000x16 32) (b : Fin 1024) (g : Fin 20000) :
    Terms.out (F := Ideal) x w1 b1 w2 b2 gt (ix2 b g)
      = (∑ h : Fin 4096, Cert.Spec.hidAt x w1 b1 b h * Terms.wd (F := Ideal) gt w2 (ix2 g h)) + b2 (ix1 g) := by
  unfold Terms.out
  generalize Terms.wd (F := Ideal) gt w2 = W
  rw [addf_apply, row_read, dot_eq_plain, StackMember.dotGeneral_plain_apply]
  congr 1
  refine Finset.sum_congr rfl fun h _ => ?_
  rw [hid_apply, transpose_ix2_apply]

end Cert.ReferenceIdeal.RefRead

end
-- ==== Proof.Bridge.lean ====
/-
  The two programs compute one function. Their host chains build the same index pairs: the column words are the same
  operations of gene_tf, and the row words are the gene numbers 0 … 19999, which no "move negative words up" step changes
  whatever axis length it would add (20480 on the padded side, 20000 on the reference's). So the padded dense matrix and
  the reference's dense matrix agree on rows below 20000 (an accumulating scatter's entry depends on the operand's row
  count only through the range test, and every landing row is below 20000), the padded bias agrees with the bias below
  20000, and the kernel's four tile sums, added left to right, are the reference's one sum over the 4096 hidden nodes.
-/
import proofs.«182253_j45011257262638_1_alg».proof.Proof.RefTerms
import proofs.«182253_j45011257262638_1_alg».proof.Proof.KerTerms
import proofs.«182253_j45011257262638_1_alg».proof.Proof.ScatterFacts
import proofs.«182253_j45011257262638_1_alg».proof.Proof.SpecOut
import proofs.«182253_j45011257262638_1_alg».proof.Proof.RefRead
import Idealize.ShloMosaic.Lib.Pipeline.Value
import Idealize.ShloMosaic.Lib.ValueIdx

noncomputable section

namespace Cert.Bridge

open Idealize.ShloMosaic Idealize.ShloMosaic.ValueIdx
open scoped BigOperators

/-- The column words are one term in both programs. -/
theorem cols_eq (gt : IVec ⟨2, ![20000, 16]⟩ 32) : Cert.KernelIdeal.Terms.cols gt = Cert.ReferenceIdeal.Terms.cols gt := rfl

/-- So are the row words. -/
theorem rows_eq : Cert.KernelIdeal.Terms.rows = Cert.ReferenceIdeal.Terms.rows := rfl

/-- What holds of every entry of an array holds of every entry of a broadcast of it. -/
theorem bcast_all {α : Type} {s t : Shape} (dims : Fin s.rank → Fin t.rank) (h : s.BroadcastsInDim t dims) (x : s.Idx → α)
    (P : α → Prop) (hP : ∀ k, P (x k)) (j : t.Idx) : P (broadcastInDim t dims h x j) := by
  unfold broadcastInDim
  exact hP _

/-- A gene number below 20000 is not negative as a signed 32-bit word. -/
theorem iota_nonneg (k : Cert.ReferenceIdeal.S20000.Idx) : 0 ≤ (iotaInDim Cert.ReferenceIdeal.S20000 32 0 k).toInt := by
  unfold iotaInDim
  have hlt : (k 0).val < 20000 := (k 0).isLt
  rw [BitVec.toInt_eq_toNat_cond, BitVec.toNat_ofNat]
  have : (k 0).val % 2 ^ 32 = (k 0).val := Nat.mod_eq_of_lt (by omega)
  rw [this]
  split <;> omega

/-- A row word is a gene number below 20000, so it is not negative as a signed word. -/
theorem rows_nonneg (i : Cert.ReferenceIdeal.S20000x128.Idx) : 0 ≤ (Cert.ReferenceIdeal.Terms.rows i).toInt := by
  unfold Cert.ReferenceIdeal.Terms.rows
  exact bcast_all _ _ _ (fun w : BitVec 32 => 0 ≤ w.toInt) (fun k => bcast_all _ _ _ (fun w : BitVec 32 => 0 ≤ w.toInt) iota_nonneg k) i

/-- Moving negative row words up changes nothing, whatever length is added. -/
theorem norm_rows_K : Cert.KernelIdeal.Terms.norm 20480#32 Cert.KernelIdeal.Terms.rows = Cert.ReferenceIdeal.Terms.rows := by
  unfold Cert.KernelIdeal.Terms.norm
  rw [rows_eq]
  exact Cert.ScatterFacts.norm_of_nonneg _ _ _ (fun _ => rfl) rows_nonneg

theorem norm_rows_R : Cert.ReferenceIdeal.Terms.norm 20000#32 Cert.ReferenceIdeal.Terms.rows = Cert.ReferenceIdeal.Terms.rows := by
  unfold Cert.ReferenceIdeal.Terms.norm
  exact Cert.ScatterFacts.norm_of_nonneg _ _ _ (fun _ => rfl) rows_nonneg

/-- The two scatters read the same index pairs. -/
theorem sidx_eq (gt : IVec ⟨2, ![20000, 16]⟩ 32) : Cert.KernelIdeal.Terms.sidx gt = Cert.ReferenceIdeal.Terms.sidx gt := by
  unfold Cert.KernelIdeal.Terms.sidx Cert.ReferenceIdeal.Terms.sidx
  rw [norm_rows_K, norm_rows_R]
  rfl

/-- The padded dense matrix is the reference's on the first 20000 rows. -/
theorem wd_rows (gt : IVec ⟨2, ![20000, 16]⟩ 32) (w2 : (⟨3, ![20000, 16, 8]⟩ : Shape).Idx → EReal) (g : Fin 20000) (h : Fin 4096) :
    Cert.KernelIdeal.Terms.wd (F := Ideal) gt w2 (ix2 (⟨g.val, by omega⟩ : Fin 20480) h) = Cert.ReferenceIdeal.Terms.wd (F := Ideal) gt w2 (ix2 g h) := by
  unfold Cert.KernelIdeal.Terms.wd Cert.ReferenceIdeal.Terms.wd
  rw [sidx_eq]
  exact Cert.ScatterFacts.scatterAdd_rows _ _ ⟨rfl, rfl, rfl, rfl⟩ ⟨rfl, rfl, rfl, rfl⟩ _ _ _ _ g h rfl

/-- The padded bias is the bias on the first 20000 entries. -/
theorem b2pad_apply (b2 : (⟨1, ![20000]⟩ : Shape).Idx → EReal) (g : Fin 20000) :
    Cert.KernelIdeal.Terms.b2pad (F := Ideal) b2 (ix1 (⟨g.val, by omega⟩ : Fin 20480)) = b2 (ix1 g) := by
  unfold Cert.KernelIdeal.Terms.b2pad
  exact Cert.ScatterFacts.scatterSet_window _ ⟨rfl, rfl, rfl, rfl⟩ _ _ (fun _ => rfl) b2 g

/-- THE BRIDGE: the first 20000 columns of the kernel's padded result function are the reference's result. -/
theorem result_eq (x : (⟨2, ![1024, 512]⟩ : Shape).Idx → EReal) (w1 b1 : (⟨1, ![4096]⟩ : Shape).Idx → EReal)
    (w2 : (⟨3, ![20000, 16, 8]⟩ : Shape).Idx → EReal) (b2 : (⟨1, ![20000]⟩ : Shape).Idx → EReal) (gt : IVec ⟨2, ![20000, 16]⟩ 32)
    (hs : (⟨2, ![1024, 20480]⟩ : Shape).Slices ![0, 0] ⟨2, ![1024, 20000]⟩) :
    extractStridedSlice (⟨2, ![1024, 20000]⟩ : Shape) ![0, 0]
        (fun i : (⟨2, ![1024, 20480]⟩ : Shape).Idx => Cert.Spec.outK x w1 b1 (Cert.KernelIdeal.Terms.wd (F := Ideal) gt w2) (Cert.KernelIdeal.Terms.b2pad (F := Ideal) b2)
          ⟨(i 0).val, idx2_lt0 i⟩ ⟨(i 1).val, idx2_lt1 i⟩) hs
      = Cert.ReferenceIdeal.Terms.out (F := Ideal) x w1 b1 w2 b2 gt := by
  funext i
  obtain ⟨b, g, rfl⟩ : ∃ (b : Fin 1024) (g : Fin 20000), i = ix2 b g := ⟨i 0, i 1, eq_ix2 i⟩
  rw [Cert.ReferenceIdeal.RefRead.out_apply]
  rw [extractStridedSlice_apply ![0, 0] _ hs (ix2 b g) (ix2 b (⟨g.val, by omega⟩ : Fin 20480))
    (fun a => by
      match a with
      | ⟨0, _⟩ => show b.val = 0 + b.val; omega
      | ⟨1, _⟩ => show g.val = 0 + g.val; omega)]
  show Cert.Spec.outK x w1 b1 (Cert.KernelIdeal.Terms.wd (F := Ideal) gt w2) (Cert.KernelIdeal.Terms.b2pad (F := Ideal) b2) b (⟨g.val, by omega⟩ : Fin 20480) = _
  unfold Cert.Spec.outK
  rw [Cert.ScatterFacts.sum_eq_accAt, b2pad_apply]
  exact congrArg (· + b2 (ix1 g)) (Finset.sum_congr rfl fun h _ => by rw [wd_rows])

end Cert.Bridge

end
-- ==== Proof.lean ====
/-
  The certificate's claims for the structured-sparse decoder: two sparse linear layers with a leaky rectifier between.
  Both programs expand the sparse second layer into a dense weight matrix by the same accumulating scatter; the kernel
  pads that matrix and the bias to 20480 genes, multiplies hidden by denseᵀ in 40 gene tiles × 4 hidden tiles with an
  accumulator carried across the hidden tiles, adds the bias at the last hidden tile and slices the padding off.
  On the extended reals the accumulator's four partial sums, added left to right, are the reference's one sum over the
  4096 hidden nodes (addition there is commutative and associative; nothing is cancelled or distributed, so the
  finiteness of the inputs is not used), the padded dense matrix and bias agree with the reference's below gene 20000,
  and a change of float format is the identity. The frames of the two kernel programs are the generated frame
  certificates; the reference's frame is its run with the result dropped; the ideal pass rewrote nothing.
-/
import proofs.«182253_j45011257262638_1_alg».proof.Defs
import proofs.«182253_j45011257262638_1_alg».proof.Proof.Gen.Kernel.Frame
import proofs.«182253_j45011257262638_1_alg».proof.Proof.Gen.KernelIdeal.Frame
import proofs.«182253_j45011257262638_1_alg».proof.Proof.Gen.ReferenceIdeal
import proofs.«182253_j45011257262638_1_alg».proof.Proof.Gen.Pre_finite_inputs
import proofs.«182253_j45011257262638_1_alg».proof.Proof.KerValue
import proofs.«182253_j45011257262638_1_alg».proof.Proof.RefRun
import proofs.«182253_j45011257262638_1_alg».proof.Proof.Bridge

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, with the result's value dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- At the ideal instance the kernel's result buffer ends at the first 20000 columns of its padded result function and
    the reference's at hidden · denseᵀ + bias, of arguments that agree: one function. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.RefRun.run (F := Ideal) m' ρ')
  obtain ⟨a0, a1, a2, a3, a4, a5⟩ := hagree c
  rw [a0, a1, a2, a3, a4, a5]
  exact (Cert.Bridge.result_eq _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
